-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x1024x1024 : Shape := ⟨4, ![8, 3, 1024, 1024]⟩
abbrev S8x1024x1024 : Shape := ⟨3, ![8, 1024, 1024]⟩
abbrev S_ : Shape := ⟨0, ![]⟩

class Facts : Prop where
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_

variable [Facts]

def fn {F : FTy → Type} [FloatOps F] (main_arg0 : FVec F S8x3x1024x1024 .f32) (main_arg1 : IVec S8x1024x1024 32) : IVec S_ 1 :=
  let main_v0 : FVec F S8x3x1024x1024 .f32 := Host.absf main_arg0
  let main_cst : FVec F S_ .f32 := constant S_ .f32 0x7F800000#32
  let main_v1 : FVec F S8x3x1024x1024 .f32 := broadcastInDim S8x3x1024x1024 ![] bcast_S_S8x3x1024x1024 main_cst
  let main_v2 : IVec S8x3x1024x1024 1 := cmpf .olt main_v0 main_v1
  let main_c : IVec S_ 1 := constantI S_ 1 1#1
  let main_v3 : IVec S_ 1 := (fun x v => Host.reduce IntOp.andi x v reducesTo_S8x3x1024x1024_S_d0_1_2_3 h_S_) main_v2 main_c
  let main_c_0 : IVec S_ 32 := constantI S_ 32 0#32
  let main_v4 : IVec S8x1024x1024 32 := broadcastInDim S8x1024x1024 ![] bcast_S_S8x1024x1024 main_c_0
  let main_v5 : IVec S8x1024x1024 1 := cmpi .sge main_arg1 main_v4
  let main_c_1 : IVec S_ 32 := constantI S_ 32 500#32
  let main_v6 : IVec S8x1024x1024 32 := broadcastInDim S8x1024x1024 ![] bcast_S_S8x1024x1024 main_c_1
  let main_v7 : IVec S8x1024x1024 1 := cmpi .slt main_arg1 main_v6
  let main_v8 : IVec S8x1024x1024 1 := andi main_v5 main_v7
  let main_c_2 : IVec S_ 1 := constantI S_ 1 1#1
  let main_v9 : IVec S_ 1 := (fun x v => Host.reduce IntOp.andi x v reducesTo_S8x1024x1024_S_d0_1_2 h_S_) main_v8 main_c_2
  let main_v10 : IVec S_ 1 := andi main_v3 main_v9
  main_v10
-- ==== Kernel.lean ====
abbrev S8x3x1024x1024 : Shape := ⟨4, ![8, 3, 1024, 1024]⟩
abbrev S8x1024x1024 : Shape := ⟨3, ![8, 1024, 1024]⟩
abbrev S8x3x1048576 : Shape := ⟨3, ![8, 3, 1048576]⟩
abbrev S8x1x1048576 : Shape := ⟨3, ![8, 1, 1048576]⟩
abbrev S8x12x128 : Shape := ⟨3, ![8, 12, 128]⟩
abbrev S1x3x8192 : Shape := ⟨3, ![1, 3, 8192]⟩
abbrev S1x1x8192 : Shape := ⟨3, ![1, 1, 8192]⟩
abbrev S1x12x128 : Shape := ⟨3, ![1, 12, 128]⟩
abbrev S12x128 : Shape := ⟨2, ![12, 128]⟩
abbrev S3x8192 : Shape := ⟨2, ![3, 8192]⟩
abbrev S8192 : Shape := ⟨1, ![8192]⟩
abbrev S4x8192 : Shape := ⟨2, ![4, 8192]⟩
abbrev S1x8192 : Shape := ⟨2, ![1, 8192]⟩
abbrev S8192x128 : Shape := ⟨2, ![8192, 128]⟩
abbrev S8192x1 : Shape := ⟨2, ![8192, 1]⟩
abbrev S12x8192 : Shape := ⟨2, ![12, 8192]⟩
abbrev S8x3x4x128 : Shape := ⟨4, ![8, 3, 4, 128]⟩
abbrev S8x3x512 : Shape := ⟨3, ![8, 3, 512]⟩
abbrev S8x1x512 : Shape := ⟨3, ![8, 1, 512]⟩
abbrev S8x512 : Shape := ⟨2, ![8, 512]⟩
abbrev S8x499 : Shape := ⟨2, ![8, 499]⟩
abbrev S_ : Shape := ⟨0, ![]⟩
abbrev S8 : Shape := ⟨1, ![8]⟩

abbrev nBuf : Space → Nat
  | .hbm => 61
  | .vmem => 7
  | .smem => 0
  | _ => 0

abbrev bufTy : (tb : Table) → Fin (tcTables nBuf tb) → BufTy
  | .hbm, ⟨0, _⟩ => ⟨S8x3x1024x1024, .f32⟩
  | .hbm, ⟨1, _⟩ => ⟨S8x1024x1024, .i32⟩
  | .hbm, ⟨2, _⟩ => ⟨S8x3x1048576, .f32⟩
  | .hbm, ⟨3, _⟩ => ⟨S8x1x1048576, .i32⟩
  | .hbm, ⟨4, _⟩ => ⟨S8x12x128, .f32⟩
  | .hbm, ⟨5, _⟩ => ⟨S8x3x4x128, .f32⟩
  | .hbm, ⟨6, _⟩ => ⟨S8x3x512, .f32⟩
  | .hbm, ⟨7, _⟩ => ⟨S8x1x512, .f32⟩
  | .hbm, ⟨8, _⟩ => ⟨S8x512, .f32⟩
  | .hbm, ⟨9, _⟩ => ⟨S8x1x512, .f32⟩
  | .hbm, ⟨10, _⟩ => ⟨S8x512, .f32⟩
  | .hbm, ⟨11, _⟩ => ⟨S8x1x512, .f32⟩
  | .hbm, ⟨12, _⟩ => ⟨S8x512, .f32⟩
  | .hbm, ⟨13, _⟩ => ⟨S8x499, .f32⟩
  | .hbm, ⟨14, _⟩ => ⟨S8x499, .f32⟩
  | .hbm, ⟨15, _⟩ => ⟨S8x499, .f32⟩
  | .hbm, ⟨16, _⟩ => ⟨S_, .f32⟩
  | .hbm, ⟨17, _⟩ => ⟨S8x499, .f32⟩
  | .hbm, ⟨18, _⟩ => ⟨S8x499, .f32⟩
  | .hbm, ⟨19, _⟩ => ⟨S_, .f32⟩
  | .hbm, ⟨20, _⟩ => ⟨S8x499, .f32⟩
  | .hbm, ⟨21, _⟩ => ⟨S8x499, .i1⟩
  | .hbm, ⟨22, _⟩ => ⟨S_, .f32⟩
  | .hbm, ⟨23, _⟩ => ⟨S8x499, .f32⟩
  | .hbm, ⟨24, _⟩ => ⟨S8x499, .i1⟩
  | .hbm, ⟨25, _⟩ => ⟨S_, .f32⟩
  | .hbm, ⟨26, _⟩ => ⟨S_, .f32⟩
  | .hbm, ⟨27, _⟩ => ⟨S8x499, .f32⟩
  | .hbm, ⟨28, _⟩ => ⟨S8x499, .f32⟩
  | .hbm, ⟨29, _⟩ => ⟨S_, .f32⟩
  | .hbm, ⟨30, _⟩ => ⟨S8x499, .f32⟩
  | .hbm, ⟨31, _⟩ => ⟨S8x499, .f32⟩
  | .hbm, ⟨32, _⟩ => ⟨S_, .f32⟩
  | .hbm, ⟨33, _⟩ => ⟨S_, .f32⟩
  | .hbm, ⟨34, _⟩ => ⟨S8x499, .f32⟩
  | .hbm, ⟨35, _⟩ => ⟨S8x499, .f32⟩
  | .hbm, ⟨36, _⟩ => ⟨S8x499, .f32⟩
  | .hbm, ⟨37, _⟩ => ⟨S8x499, .f32⟩
  | .hbm, ⟨38, _⟩ => ⟨S8x499, .f32⟩
  | .hbm, ⟨39, _⟩ => ⟨S8x499, .f32⟩
  | .hbm, ⟨40, _⟩ => ⟨S_, .f32⟩
  | .hbm, ⟨41, _⟩ => ⟨S_, .f32⟩
  | .hbm, ⟨42, _⟩ => ⟨S8x499, .f32⟩
  | .hbm, ⟨43, _⟩ => ⟨S8x499, .f32⟩
  | .hbm, ⟨44, _⟩ => ⟨S_, .f32⟩
  | .hbm, ⟨45, _⟩ => ⟨S8x499, .f32⟩
  | .hbm, ⟨46, _⟩ => ⟨S8x499, .i1⟩
  | .hbm, ⟨47, _⟩ => ⟨S8x499, .i32⟩
  | .hbm, ⟨48, _⟩ => ⟨S_, .i32⟩
  | .hbm, ⟨49, _⟩ => ⟨S8, .i32⟩
  | .hbm, ⟨50, _⟩ => ⟨S8, .f32⟩
  | .hbm, ⟨51, _⟩ => ⟨S_, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S8, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .local _ .vmem, ⟨0, _⟩ => ⟨S1x3x8192, .f32⟩
  | .local _ .vmem, ⟨1, _⟩ => ⟨S1x3x8192, .f32⟩
  | .local _ .vmem, ⟨2, _⟩ => ⟨S1x1x8192, .i32⟩
  | .local _ .vmem, ⟨3, _⟩ => ⟨S1x1x8192, .i32⟩
  | .local _ .vmem, ⟨4, _⟩ => ⟨S1x12x128, .f32⟩
  | .local _ .vmem, ⟨5, _⟩ => ⟨S1x12x128, .f32⟩
  | .local _ .vmem, ⟨6, _⟩ => ⟨S12x128, .f32⟩
  | _, _ => ⟨S8x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_call2_v0 : Ref sig .tc := ⟨.hbm, 41, rfl⟩
abbrev main_call2_v1 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 128], ![false, false]⟩

def k0_cond2 (i : grid0.Coords) : BitVec 1 :=
  let arg1 : BitVec 32 := BitVec.ofNat 32 (i 1).val
  let c127_i32_13 : BitVec 32 := 127#32
  let v51 : BitVec 1 := Scalar.cmpi .eq arg1 c127_i32_13
  let v52 : BitVec 32 := Scalar.extui v51
  let c0_i32_14 : BitVec 32 := 0#32
  let v53 : BitVec 1 := Scalar.cmpi .ne v52 c0_i32_14
  v53

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x12x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x3x1024x1024_S8x3x1048576 : S8x3x1024x1024.ShapeCasts S8x3x1048576
  shapeCasts_S8x1024x1024_S8x1x1048576 : S8x1024x1024.ShapeCasts S8x1x1048576
  inb_S12x128_S12x128_0_0 : ∀ a, (![0, 0] : Fin 2 → Nat) a + S12x128.size a ≤ S12x128.size a
  h_S12x128 : 0 < S12x128.numel
  shapeCasts_S12x128_S12x128 : S12x128.ShapeCasts S12x128
  inb_S1x3x8192_S1x3x8192_0_0_0 : ∀ a, (![0, 0, 0] : Fin 3 → Nat) a + S1x3x8192.size a ≤ S1x3x8192.size a
  h_S1x3x8192 : 0 < S1x3x8192.numel
  shapeCasts_S1x3x8192_S3x8192 : S1x3x8192.ShapeCasts S3x8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S8192 : S1x1x8192.ShapeCasts S8192
  reduces_S3x8192_S8192 : S3x8192.Reduces [0] S8192
  iota_S4x8192_d0_w32 : S4x8192.Iotas .tc 32 [0]
  shapeCasts_S8192_S1x8192 : S8192.ShapeCasts S1x8192
  shapeCasts_S1x8192_S1x8192 : S1x8192.ShapeCasts S1x8192
  broadcasts_S1x8192_S4x8192 : S1x8192.Broadcasts S4x8192
  natLt_1_32 : 1 < 32
  bitsLt_bf16_f32 : FTy.bits .bf16 < FTy.bits .f32
  iota_S8192x128_d1_w32 : S8192x128.Iotas .tc 32 [1]
  shapeCasts_S8192_S8192x1 : S8192.ShapeCasts S8192x1
  shapeCasts_S8192x1_S8192x1 : S8192x1.ShapeCasts S8192x1
  broadcasts_S8192x1_S8192x128 : S8192x1.Broadcasts S8192x128
  concatenates_S4x8192_S4x8192_S4x8192_S12x8192_d0 : Shape.Concatenates [S4x8192, S4x8192, S4x8192] S12x8192 0
  inb_S1x12x128_S1x12x128_0_0_0 : ∀ a, (![0, 0, 0] : Fin 3 → Nat) a + S1x12x128.size a ≤ S1x12x128.size a
  h_S1x12x128 : 0 < S1x12x128.numel
  shapeCasts_S1x12x128_S12x128 : S1x12x128.ShapeCasts S12x128
  shapeCasts_S12x128_S1x12x128 : S12x128.ShapeCasts S1x12x128
  shapeCasts_S8x12x128_S8x3x4x128 : S8x12x128.ShapeCasts S8x3x4x128
  shapeCasts_S8x3x4x128_S8x3x512 : S8x3x4x128.ShapeCasts S8x3x512
  slices_S8x3x512_S8x1x512_0_0_0 : S8x3x512.Slices ![0, 0, 0] S8x1x512
  shapeCasts_S8x1x512_S8x512 : S8x1x512.ShapeCasts S8x512
  slices_S8x3x512_S8x1x512_0_1_0 : S8x3x512.Slices ![0, 1, 0] S8x1x512
  slices_S8x3x512_S8x1x512_0_2_0 : S8x3x512.Slices ![0, 2, 0] S8x1x512
  slices_S8x512_S8x499_0_1 : S8x512.Slices ![0, 1] S8x499
  bcast_S_S8x499 : S_.BroadcastsInDim S8x499 (![] : Fin 0 → Fin S8x499.rank)
  reducesTo_S8x499_S8_d1 : S8x499.ReducesTo [1] S8
  h_S_ : 0 < S_.numel
  bcast_S_S8 : S_.BroadcastsInDim S8 (![] : Fin 0 → Fin S8.rank)
  reducesTo_S8_S_d0 : S8.ReducesTo [0] S_
  dot_S12x8192_S8192x128_S12x128_1_0_0_1_n_n_wf : DotDims.WF S12x8192 S8192x128 S12x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x8192.size a ≤ S8x3x1048576.size a
  hwx0_0 : ∀ i : grid0.Coords, EltTy.bits .f32 = 32 ∨ (Rect.block (s := S8x3x1048576) S1x3x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8192.size a ≤ S8x1x1048576.size a
  hwx0_1 : ∀ i : grid0.Coords, EltTy.bits .i32 = 32 ∨ (Rect.block (s := S8x1x1048576) S1x1x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x12x128.size a ≤ S8x12x128.size a
  hwx0_2 : ∀ i : grid0.Coords, EltTy.bits .f32 = 32 ∨ (Rect.block (s := S8x12x128) S1x12x128.size (cc0_transform_2 i) (hinb0_2 i)).WholeWords (EltTy.packing .f32)

variable [Facts₀]

def dot_S12x8192_S8192x128_S12x128_1_0_0_1_n_n : DotDims S12x8192 S8192x128 S12x128 where
  lhsContracting := [1]
  rhsContracting := [0]
  lhsNonContracting := [0]
  rhsNonContracting := [1]
  lhsBatch := []
  rhsBatch := []
  wf := dot_S12x8192_S8192x128_S12x128_1_0_0_1_n_n_wf

abbrev win0_0 : Pipeline.Window sig grid0 :=
  Pipeline.Window.ofSpec (Memref.whole main_v0) S1x3x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x12x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x3x1024x1024 : Shape := ⟨4, ![8, 3, 1024, 1024]⟩
abbrev S8x1024x1024 : Shape := ⟨3, ![8, 1024, 1024]⟩
abbrev S8x3x1048576 : Shape := ⟨3, ![8, 3, 1048576]⟩
abbrev S8x1048576 : Shape := ⟨2, ![8, 1048576]⟩
abbrev S8 : Shape := ⟨1, ![8]⟩
abbrev S8x1 : Shape := ⟨2, ![8, 1]⟩
abbrev S_ : Shape := ⟨0, ![]⟩
abbrev S8388608 : Shape := ⟨1, ![8388608]⟩
abbrev S4000 : Shape := ⟨1, ![4000]⟩
abbrev S8388608x1 : Shape := ⟨2, ![8388608, 1]⟩
abbrev S8x500 : Shape := ⟨2, ![8, 500]⟩
abbrev S8x499 : Shape := ⟨2, ![8, 499]⟩

abbrev nBuf : Space → Nat
  | .hbm => 84
  | .vmem => 0
  | .smem => 0
  | _ => 0

abbrev bufTy : (tb : Table) → Fin (tcTables nBuf tb) → BufTy
  | .hbm, ⟨0, _⟩ => ⟨S8x3x1024x1024, .f32⟩
  | .hbm, ⟨1, _⟩ => ⟨S8x1024x1024, .i32⟩
  | .hbm, ⟨2, _⟩ => ⟨S8x3x1048576, .f32⟩
  | .hbm, ⟨3, _⟩ => ⟨S8x1048576, .i32⟩
  | .hbm, ⟨4, _⟩ => ⟨S8, .i32⟩
  | .hbm, ⟨5, _⟩ => ⟨S8x1, .i32⟩
  | .hbm, ⟨6, _⟩ => ⟨S_, .i32⟩
  | .hbm, ⟨7, _⟩ => ⟨S8x1, .i32⟩
  | .hbm, ⟨8, _⟩ => ⟨S8x1, .i32⟩
  | .hbm, ⟨9, _⟩ => ⟨S8x1048576, .i32⟩
  | .hbm, ⟨10, _⟩ => ⟨S8x1048576, .i32⟩
  | .hbm, ⟨11, _⟩ => ⟨S8388608, .i32⟩
  | .hbm, ⟨12, _⟩ => ⟨S_, .f32⟩
  | .hbm, ⟨13, _⟩ => ⟨S8x1048576, .f32⟩
  | .hbm, ⟨14, _⟩ => ⟨S8388608, .f32⟩
  | .hbm, ⟨15, _⟩ => ⟨S_, .f32⟩
  | .hbm, ⟨16, _⟩ => ⟨S4000, .f32⟩
  | .hbm, ⟨17, _⟩ => ⟨S8388608x1, .i32⟩
  | .hbm, ⟨18, _⟩ => ⟨S4000, .f32⟩
  | .hbm, ⟨19, _⟩ => ⟨S8x500, .f32⟩
  | .hbm, ⟨20, _⟩ => ⟨S8x3x1048576, .f32⟩
  | .hbm, ⟨21, _⟩ => ⟨S_, .f32⟩
  | .hbm, ⟨22, _⟩ => ⟨S8x1048576, .f32⟩
  | .hbm, ⟨23, _⟩ => ⟨S8388608, .f32⟩
  | .hbm, ⟨24, _⟩ => ⟨S_, .f32⟩
  | .hbm, ⟨25, _⟩ => ⟨S4000, .f32⟩
  | .hbm, ⟨26, _⟩ => ⟨S8388608x1, .i32⟩
  | .hbm, ⟨27, _⟩ => ⟨S4000, .f32⟩
  | .hbm, ⟨28, _⟩ => ⟨S8x500, .f32⟩
  | .hbm, ⟨29, _⟩ => ⟨S_, .f32⟩
  | .hbm, ⟨30, _⟩ => ⟨S8388608, .f32⟩
  | .hbm, ⟨31, _⟩ => ⟨S_, .f32⟩
  | .hbm, ⟨32, _⟩ => ⟨S4000, .f32⟩
  | .hbm, ⟨33, _⟩ => ⟨S8388608x1, .i32⟩
  | .hbm, ⟨34, _⟩ => ⟨S4000, .f32⟩
  | .hbm, ⟨35, _⟩ => ⟨S8x500, .f32⟩
  | .hbm, ⟨36, _⟩ => ⟨S8x499, .f32⟩
  | .hbm, ⟨37, _⟩ => ⟨S8x499, .f32⟩
  | .hbm, ⟨38, _⟩ => ⟨S8x499, .f32⟩
  | .hbm, ⟨39, _⟩ => ⟨S_, .f32⟩
  | .hbm, ⟨40, _⟩ => ⟨S8x499, .f32⟩
  | .hbm, ⟨41, _⟩ => ⟨S8x499, .f32⟩
  | .hbm, ⟨42, _⟩ => ⟨S_, .f32⟩
  | .hbm, ⟨43, _⟩ => ⟨S8x499, .f32⟩
  | .hbm, ⟨44, _⟩ => ⟨S8x499, .i1⟩
  | .hbm, ⟨45, _⟩ => ⟨S_, .f32⟩
  | .hbm, ⟨46, _⟩ => ⟨S8x499, .f32⟩
  | .hbm, ⟨47, _⟩ => ⟨S8x499, .i1⟩
  | .hbm, ⟨48, _⟩ => ⟨S_, .f32⟩
  | .hbm, ⟨49, _⟩ => ⟨S_, .f32⟩
  | .hbm, ⟨50, _⟩ => ⟨S8x499, .f32⟩
  | .hbm, ⟨51, _⟩ => ⟨S8x499, .f32⟩
  | .hbm, ⟨52, _⟩ => ⟨S_, .f32⟩
  | .hbm, ⟨53, _⟩ => ⟨S8x499, .f32⟩
  | .hbm, ⟨54, _⟩ => ⟨S8x499, .f32⟩
  | .hbm, ⟨55, _⟩ => ⟨S_, .f32⟩
  | .hbm, ⟨56, _⟩ => ⟨S_, .f32⟩
  | .hbm, ⟨57, _⟩ => ⟨S8x499, .f32⟩
  | .hbm, ⟨58, _⟩ => ⟨S8x499, .f32⟩
  | .hbm, ⟨59, _⟩ => ⟨S8x499, .f32⟩
  | .hbm, ⟨60, _⟩ => ⟨S8x499, .f32⟩
  | .hbm, ⟨61, _⟩ => ⟨S8x499, .f32⟩
  | .hbm, ⟨62, _⟩ => ⟨S8x499, .f32⟩
  | .hbm, ⟨63, _⟩ => ⟨S_, .f32⟩
  | .hbm, ⟨64, _⟩ => ⟨S_, .f32⟩
  | .hbm, ⟨65, _⟩ => ⟨S8x499, .f32⟩
  | .hbm, ⟨66, _⟩ => ⟨S8x499, .f32⟩
  | .hbm, ⟨67, _⟩ => ⟨S_, .f32⟩
  | .hbm, ⟨68, _⟩ => ⟨S8x499, .f32⟩
  | .hbm, ⟨69, _⟩ => ⟨S8x499, .i1⟩
  | .hbm, ⟨70, _⟩ => ⟨S8x499, .i32⟩
  | .hbm, ⟨71, _⟩ => ⟨S_, .i32⟩
  | .hbm, ⟨72, _⟩ => ⟨S8, .i32⟩
  | .hbm, ⟨73, _⟩ => ⟨S8, .f32⟩
  | .hbm, ⟨74, _⟩ => ⟨S_, .f32⟩
  | .hbm, ⟨75, _⟩ => ⟨S8, .f32⟩
  | .hbm, ⟨76, _⟩ => ⟨S_, .f32⟩
  | .hbm, ⟨77, _⟩ => ⟨S8, .f32⟩
  | .hbm, ⟨78, _⟩ => ⟨S8, .f32⟩
  | .hbm, ⟨79, _⟩ => ⟨S8, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S8x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_call0_v0 : Ref sig .tc := ⟨.hbm, 49, rfl⟩
abbrev main_call0_v1 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_call1_v0 : Ref sig .tc := ⟨.hbm, 56, rfl⟩
abbrev main_call1_v1 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_call2_v0 : Ref sig .tc := ⟨.hbm, 64, rfl⟩
abbrev main_call2_v1 : Ref sig .tc := ⟨.hbm, 65, rfl⟩
abbrev main_v44 : Ref sig .tc := ⟨.hbm, 66, rfl⟩
abbrev main_cst_12 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_13 : Ref sig .tc := ⟨.hbm, 71, rfl⟩
abbrev main_v48 : Ref sig .tc := ⟨.hbm, 72, rfl⟩
abbrev main_v49 : Ref sig .tc := ⟨.hbm, 73, rfl⟩
abbrev main_cst_14 : Ref sig .tc := ⟨.hbm, 74, rfl⟩
abbrev main_v50 : Ref sig .tc := ⟨.hbm, 75, rfl⟩
abbrev main_cst_15 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_16 : Ref sig .tc := ⟨.hbm, 80, rfl⟩
abbrev main_v54 : Ref sig .tc := ⟨.hbm, 81, rfl⟩
abbrev main_cst_17 : Ref sig .tc := ⟨.hbm, 82, rfl⟩
abbrev main_v55 : Ref sig .tc := ⟨.hbm, 83, rfl⟩

abbrev nD : Nat := 1
abbrev τ : Topo := Topo.v7x

variable {F : FTy → Type} [FloatOps F]

class Facts₀ : Prop where
  shapeCasts_S8x3x1024x1024_S8x3x1048576 : S8x3x1024x1024.ShapeCasts S8x3x1048576
  shapeCasts_S8x1024x1024_S8x1048576 : S8x1024x1024.ShapeCasts S8x1048576
  bcast_S8_S8x1_0 : S8.BroadcastsInDim S8x1 (![0] : Fin 1 → Fin S8x1.rank)
  bcast_S_S8x1 : S_.BroadcastsInDim S8x1 (![] : Fin 0 → Fin S8x1.rank)
  bcast_S8x1_S8x1048576_0_1 : S8x1.BroadcastsInDim S8x1048576 (![0, 1] : Fin 2 → Fin S8x1048576.rank)
  shapeCasts_S8x1048576_S8388608 : S8x1048576.ShapeCasts S8388608
  reducesTo_S8x3x1048576_S8x1048576_d1 : S8x3x1048576.ReducesTo [1] S8x1048576
  h_S_ : 0 < S_.numel
  bcast_S_S4000 : S_.BroadcastsInDim S4000 (![] : Fin 0 → Fin S4000.rank)
  bcast_S8388608_S8388608x1_0 : S8388608.BroadcastsInDim S8388608x1 (![0] : Fin 1 → Fin S8388608x1.rank)
  shapeCasts_S4000_S8x500 : S4000.ShapeCasts S8x500
  bcast_S_S8388608 : S_.BroadcastsInDim S8388608 (![] : Fin 0 → Fin S8388608.rank)
  slices_S8x500_S8x499_0_1 : S8x500.Slices ![0, 1] S8x499
  bcast_S_S8x499 : S_.BroadcastsInDim S8x499 (![] : Fin 0 → Fin S8x499.rank)
  natLt_1_32 : 1 < 32
  reducesTo_S8x499_S8_d1 : S8x499.ReducesTo [1] S8
  bcast_S_S8 : S_.BroadcastsInDim S8 (![] : Fin 0 → Fin S8.rank)
  reducesTo_S8_S_d0 : S8.ReducesTo [0] S_
  scatter_S4000_S8388608x1_S8388608_n_0_0_1_wf : ScatterDims.WF S4000 S8388608x1 S8388608 [] [0] [0] 1

variable [Facts₀]

def scatter_S4000_S8388608x1_S8388608_n_0_0_1 : ScatterDims S4000 S8388608x1 S8388608 where
  updateWindowDims := []
  insertedWindowDims := [0]
  scatterDimsToOperandDims := [0]
  indexVectorDim := 1
  wf := scatter_S4000_S8388608x1_S8388608_n_0_0_1_wf

class Facts : Prop extends Facts₀ where

variable [Facts]
-- ==== Proof.SegMath.lean ====
/-
  Segmented sums over pixel tiles and over flattened batches, on the extended reals.

  Pixels of one batch are numbered P = 8192 * t + p (tile t of 128, position p of 8192); all pixels of all
  batches j = 1048576 * b + P.  A per-label statistic of batch b and label l is the sum, over the pixels of
  that batch whose label is l, of a per-pixel feature.  Two ways of computing it meet here:
    * tile by tile, each tile contributing the sum over its 8192 pixels of feature × indicator × indicator,
      the tiles added one after the other into an accumulator that is reset at the first tile of each batch;
    * all at once, every pixel j of every batch contributing its feature to the slot 500 * b + label(j).
  Both are the one sum `seg`.  Only commutativity and associativity of + and the laws x * 1 = x, x * 0 = 0
  are used, which hold for every extended real; no finiteness is needed.
-/
import Mathlib.Data.EReal.Basic
import Mathlib.Algebra.BigOperators.Fin
import Mathlib.Algebra.BigOperators.Ring.Finset

open scoped BigOperators

noncomputable section

namespace Cert.SegMath

/-- The statistic: the sum of `f b P` over the pixels `P` of batch `b` whose label `tg b P` is `l`. -/
def seg (f : Fin 8 → Fin 1048576 → EReal) (tg : Fin 8 → Fin 1048576 → ℕ) (b : Fin 8) (l : ℕ) : EReal :=
  ∑ P : Fin 1048576, if tg b P = l then f b P else 0

/-- A feature times two 0/1 indicators is the feature where both hold and zero elsewhere. -/
theorem mul_ind_mul_ind (x : EReal) (A B : Prop) [Decidable A] [Decidable B] :
    x * (if A then (1 : EReal) else 0) * (if B then (1 : EReal) else 0) = if A ∧ B then x else 0 := by
  by_cases hA : A <;> by_cases hB : B <;> simp [hA, hB]

/-- Two 0/1 indicators multiplied. -/
theorem ind_mul_ind (A B : Prop) [Decidable A] [Decidable B] :
    (if A then (1 : EReal) else 0) * (if B then (1 : EReal) else 0) = if A ∧ B then 1 else 0 := by
  by_cases hA : A <;> by_cases hB : B <;> simp [hA, hB]

/-- The accumulator after point `n` of the grid (128 points per batch): reset to zero at the first point of a
    batch, then each point's contribution added to what the point before left. -/
def accum (g : ℕ → EReal) : ℕ → EReal
  | 0 => 0 + g 0
  | n + 1 => if (n + 1) % 128 = 0 then 0 + g (n + 1) else accum g n + g (n + 1)

/-- It is the sum of the contributions since the batch's first point. -/
theorem accum_eq (g : ℕ → EReal) (n : ℕ) :
    accum g n = ∑ k ∈ Finset.range (n % 128 + 1), g (n - n % 128 + k) := by
  induction n with
  | zero => simp [accum]
  | succ n ih =>
    unfold accum
    by_cases h : (n + 1) % 128 = 0
    · rw [if_pos h, h]; simp
    · rw [if_neg h, ih]
      have h1 : (n + 1) % 128 = n % 128 + 1 := by omega
      have h2 : n + 1 - (n % 128 + 1) = n - n % 128 := by omega
      rw [h1, h2, Finset.sum_range_succ _ (n % 128 + 1)]
      congr 2
      omega

/-- After a batch's last point: the sum over the batch's 128 tiles. -/
theorem accum_last (g : ℕ → EReal) (b : ℕ) :
    accum g (128 * b + 127) = ∑ t : Fin 128, g (128 * b + t.val) := by
  rw [accum_eq]
  have h1 : (128 * b + 127) % 128 = 127 := by omega
  rw [h1, Fin.sum_univ_eq_sum_range (fun k => g (128 * b + k)) 128]
  apply Finset.sum_congr rfl
  intro k _
  congr 1

/-- Tiles and positions enumerate a batch's pixels. -/
theorem sum_tiles (F : ℕ → EReal) :
    ∑ t : Fin 128, ∑ p : Fin 8192, F (8192 * t.val + p.val) = ∑ P : Fin 1048576, F P.val := by
  rw [← Fintype.sum_prod_type']
  exact Fintype.sum_equiv (finProdFinEquiv : Fin 128 × Fin 8192 ≃ Fin (128 * 8192)) _ (fun P : Fin (128 * 8192) => F P.val)
    (fun x => by
      obtain ⟨t, p⟩ := x
      show F (8192 * t.val + p.val) = F (p.val + 8192 * t.val)
      rw [Nat.add_comm])

/-- Batches and pixels enumerate all pixels. -/
theorem sum_batches (H : ℕ → EReal) :
    ∑ j : Fin 8388608, H j.val = ∑ b : Fin 8, ∑ P : Fin 1048576, H (1048576 * b.val + P.val) := by
  rw [← Fintype.sum_prod_type']
  symm
  exact Fintype.sum_equiv (finProdFinEquiv : Fin 8 × Fin 1048576 ≃ Fin (8 * 1048576)) _ (fun j : Fin (8 * 1048576) => H j.val)
    (fun x => by
      obtain ⟨b, P⟩ := x
      show H (1048576 * b.val + P.val) = H (P.val + 1048576 * b.val)
      rw [Nat.add_comm])

/-- TILE BY TILE: the accumulator after the last tile of batch `b`, each tile contributing the sum over its pixels
    of the feature where the label is `l`, is the statistic. -/
theorem accum_seg (f : Fin 8 → Fin 1048576 → EReal) (tg : Fin 8 → Fin 1048576 → ℕ) (b : Fin 8) (l : ℕ)
    (g : ℕ → EReal)
    (hg : ∀ (t : Fin 128), g (128 * b.val + t.val) = ∑ p : Fin 8192,
      if tg b ⟨8192 * t.val + p.val, by have := t.isLt; have := p.isLt; omega⟩ = l then
        f b ⟨8192 * t.val + p.val, by have := t.isLt; have := p.isLt; omega⟩ else 0) :
    accum g (128 * b.val + 127) = seg f tg b l := by
  rw [accum_last]
  unfold seg
  have key := sum_tiles (fun P => if h : P < 1048576 then (if tg b ⟨P, h⟩ = l then f b ⟨P, h⟩ else 0) else 0)
  have e1 : ∀ P : Fin 1048576, (fun P => if h : P < 1048576 then (if tg b ⟨P, h⟩ = l then f b ⟨P, h⟩ else 0) else 0) P.val
      = if tg b P = l then f b P else 0 := fun P => by
    show (if h : P.val < 1048576 then _ else _) = _
    rw [dif_pos P.isLt]
  rw [Finset.sum_congr rfl (fun P _ => e1 P)] at key
  rw [← key]
  apply Finset.sum_congr rfl
  intro t _
  rw [hg t]
  apply Finset.sum_congr rfl
  intro p _
  have hlt : 8192 * t.val + p.val < 1048576 := by have := t.isLt; have := p.isLt; omega
  show _ = (if h : 8192 * t.val + p.val < 1048576 then _ else _)
  rw [dif_pos hlt]

/-- ALL AT ONCE: the sum of the updates `u j` over the pixels `j` of all batches whose slot `key j` is
    `500 * b + l`, where pixel `1048576 * b' + P` has slot `500 * b' + tg b' P`, its update `f b' P`, and every label is
    below 500, is the statistic. -/
theorem scatter_seg (f : Fin 8 → Fin 1048576 → EReal) (tg : Fin 8 → Fin 1048576 → ℕ) (b : Fin 8) (l : ℕ) (hl : l < 500)
    (htg : ∀ b' P, tg b' P < 500)
    (key : Fin 8388608 → ℕ) (u : Fin 8388608 → EReal)
    (hkey : ∀ (b' : Fin 8) (P : Fin 1048576),
      key ⟨1048576 * b'.val + P.val, by have := b'.isLt; have := P.isLt; omega⟩ = 500 * b'.val + tg b' P)
    (hu : ∀ (b' : Fin 8) (P : Fin 1048576),
      u ⟨1048576 * b'.val + P.val, by have := b'.isLt; have := P.isLt; omega⟩ = f b' P) :
    ∑ j ∈ Finset.univ.filter (fun j : Fin 8388608 => key j = 500 * b.val + l), u j = seg f tg b l := by
  rw [Finset.sum_filter]
  have e0 := sum_batches (fun j => if h : j < 8388608 then (if key ⟨j, h⟩ = 500 * b.val + l then u ⟨j, h⟩ else 0) else 0)
  have e1 : ∀ j : Fin 8388608,
      (fun j => if h : j < 8388608 then (if key ⟨j, h⟩ = 500 * b.val + l then u ⟨j, h⟩ else 0) else 0) j.val
        = if key j = 500 * b.val + l then u j else 0 := fun j => by
    show (if h : j.val < 8388608 then _ else _) = _
    rw [dif_pos j.isLt]
  rw [Finset.sum_congr rfl (fun j _ => e1 j)] at e0
  rw [e0]
  unfold seg
  rw [Finset.sum_eq_single b]
  · apply Finset.sum_congr rfl
    intro P _
    have hlt : 1048576 * b.val + P.val < 8388608 := by have := b.isLt; have := P.isLt; omega
    show (if h : 1048576 * b.val + P.val < 8388608 then _ else _) = _
    rw [dif_pos hlt, hkey b P, hu b P]
    by_cases h : tg b P = l
    · rw [if_pos h, if_pos (by rw [h])]
    · rw [if_neg h, if_neg (by omega)]
  · intro b' _ hb'
    apply Finset.sum_eq_zero
    intro P _
    have hlt : 1048576 * b'.val + P.val < 8388608 := by have := b'.isLt; have := P.isLt; omega
    show (if h : 1048576 * b'.val + P.val < 8388608 then _ else _) = _
    rw [dif_pos hlt, hkey b' P]
    have := htg b' P
    have hne : b'.val ≠ b.val := fun h => hb' (Fin.ext h)
    rw [if_neg (by omega)]
  · intro h; exact absurd (Finset.mem_univ b) h

end Cert.SegMath

end
-- ==== Proof.Tail.lean ====
/-
  The closing arithmetic both programs share: from the per-batch, per-label sums `s`, sums of squares `ss` and pixel
  counts `cnt` (labels 1 … 499 of each of the 8 batches) to the loss.  With N = 3 · cnt the number of elements of a
  label's pixels over the three channels, a label with cnt > 1 contributes its unbiased variance
  (ss − s² / N) / (N − 1) and any other label contributes 0; a batch's contributions are summed and divided by the number
  of labels present (cnt > 0) plus 1e-8; the eight quotients are averaged.  The two programs apply exactly these
  operations, in this order, to their own `s`, `ss`, `cnt`; so once those three arrays agree the results agree, and the
  arithmetic itself is never opened.

  Also here: the per-pixel features and labels both programs segment, as functions of the arguments reshaped to
  (batch, channel, pixel) and (batch, pixel), and the statistic `stat` that `s`, `ss` and `cnt` are instances of.
-/
import Idealize.ShloMosaic.PureOps.Ideal
import Idealize.ShloMosaic.PureOps
import Idealize.ShloMosaic.Lib.ValueIdx
import proofs.«421037_j49374944034948_3_alg».proof.Proof.SegMath

noncomputable section

namespace Cert.Seg

open Idealize.ShloMosaic Idealize.ShloMosaic.ValueIdx Cert.SegMath

abbrev T8x499 : Shape := ⟨2, ![8, 499]⟩
abbrev T8 : Shape := ⟨1, ![8]⟩
abbrev T_ : Shape := ⟨0, ![]⟩
abbrev T8x3xP : Shape := ⟨3, ![8, 3, 1048576]⟩
abbrev T8xP : Shape := ⟨2, ![8, 1048576]⟩

variable {F : FTy → Type} [FloatOps F]

/-- The closing arithmetic, one line per operation of either program. -/
def tail (hb : T_.BroadcastsInDim T8x499 (![] : Fin 0 → Fin T8x499.rank)) (hr : T8x499.ReducesTo [1] T8)
    (h0 : 0 < T_.numel) (hb8 : T_.BroadcastsInDim T8 (![] : Fin 0 → Fin T8.rank)) (hr8 : T8.ReducesTo [0] T_) (hlt : 1 < 32)
    (s ss cnt : FVec F T8x499 .f32) : FVec F T_ .f32 :=
  Host.divf
    (Host.reduceAdd
      (Host.divf
        (Host.reduceAdd
          (select (cmpf .ogt cnt (broadcastInDim T8x499 ![] hb (constant T_ .f32 0x3F800000#32)))
            (Host.divf
              (subf ss
                (Host.divf (mulf s s)
                  (select (cmpf .ogt cnt (broadcastInDim T8x499 ![] hb (constant T_ .f32 0x00000000#32)))
                    (mulf (broadcastInDim T8x499 ![] hb (constant T_ .f32 0x40400000#32)) cnt)
                    (broadcastInDim T8x499 ![] hb (id (constant T_ .f32 0x3F800000#32))))))
              (select (cmpf .ogt cnt (broadcastInDim T8x499 ![] hb (constant T_ .f32 0x3F800000#32)))
                (subf (mulf (broadcastInDim T8x499 ![] hb (constant T_ .f32 0x40400000#32)) cnt)
                  (broadcastInDim T8x499 ![] hb (constant T_ .f32 0x3F800000#32)))
                (broadcastInDim T8x499 ![] hb (id (constant T_ .f32 0x3F800000#32)))))
            (broadcastInDim T8x499 ![] hb (id (constant T_ .f32 0x00000000#32))))
          (constant T_ .f32 0x00000000#32) hr h0)
        (addf
          (sitofp .f32
            (Host.reduce IntOp.addi
              (extui 32 (cmpf .ogt cnt (broadcastInDim T8x499 ![] hb (constant T_ .f32 0x00000000#32))) hlt)
              (constantI T_ 32 0#32) hr h0))
          (broadcastInDim T8 ![] hb8 (constant T_ .f32 0x322BCC77#32))))
      (constant T_ .f32 0x00000000#32) hr8 h0)
    (constant T_ .f32 0x41000000#32)

/-- Feature `c` of pixel `P` of batch `b`: the sum of the three channels, the sum of their squares, or one. -/
def feat (X : T8x3xP.Idx → EReal) (c : Fin 3) (b : Fin 8) (P : Fin 1048576) : EReal :=
  match c with
  | ⟨0, _⟩ => ∑ ch : Fin 3, X (ix3 b ch P)
  | ⟨1, _⟩ => ∑ ch : Fin 3, X (ix3 b ch P) * X (ix3 b ch P)
  | ⟨_ + 2, _⟩ => 1

/-- The label of pixel `P` of batch `b`, as a natural number. -/
def lab (T : T8xP.Idx → BitVec 32) (b : Fin 8) (P : Fin 1048576) : ℕ := (T (ix2 b P)).toNat

/-- The statistic: feature `c` summed over the pixels of batch `b` labelled `l`. -/
def stat (X : T8x3xP.Idx → EReal) (T : T8xP.Idx → BitVec 32) (c : Fin 3) (b : Fin 8) (l : ℕ) : EReal :=
  seg (feat X c) (lab T) b l

end Cert.Seg

end
-- ==== Proof.RefTail.lean ====
/-
  The reference's result is the closing arithmetic of its three segmented sums.
-/
import proofs.«421037_j49374944034948_3_alg».proof.Proof.RefRead
import proofs.«421037_j49374944034948_3_alg».proof.Proof.Tail

noncomputable section

namespace Cert.ReferenceIdeal.RefTail

open Cert.ReferenceIdeal Cert.ReferenceIdeal.Gen Cert.ReferenceIdeal.Read Idealize.ShloMosaic Cert.Seg

variable {F : FTy → Type} [FloatOps F]

/-- The last stage is the closing arithmetic of the stages `s`, `ss`, `cnt` (each operation in between is one line of it). -/
theorem v55_eq_tail (x0 : (⟨S8x3x1024x1024, .f32⟩ : BufTy).Contents (Elt F)) (x1 : (⟨S8x1024x1024, .i32⟩ : BufTy).Contents (Elt F)) :
    val_main_v55 (F := F) x0 x1
      = tail (F := F) bcast_S_S8x499 reducesTo_S8x499_S8_d1 h_S_ bcast_S_S8 reducesTo_S8_S_d0 natLt_1_32
          (val_main_v27 (F := F) x0 x1) (val_main_v28 (F := F) x0 x1) (val_main_v29 (F := F) x1) := by
  simp only [val_main_v55, val_main_v54, val_main_v53, val_main_v52, val_main_v51, val_main_v50, val_main_v49, val_main_v48,
    val_main_v47, val_main_v46, val_main_v45, val_main_v44, val_main_v43, val_main_v42, val_main_v41, val_main_v40, val_main_v39,
    val_main_v38, val_main_v37, val_main_v36, val_main_v35, val_main_v34, val_main_v33, val_main_v32, val_main_v31, val_main_v30,
    val_main_cst_5, val_main_cst_6, val_main_cst_7, val_main_cst_8, val_main_cst_9, val_main_cst_10, val_main_cst_11, val_main_cst_12,
    val_main_c_13, val_main_cst_14, val_main_cst_15, val_main_cst_16, val_main_cst_17,
    val_main_call0_v0, val_main_call0_v1, val_main_call1_v0, val_main_call1_v1, val_main_call2_v0, val_main_call2_v1, tail]

end Cert.ReferenceIdeal.RefTail

end
-- ==== Proof.RefSeg.lean ====
/-
  The reference's three segmented sums, read at one entry: each is the statistic of its feature.

  Each is a scatter-add of one update per pixel of every batch (8 · 2^20 of them) into 8 · 500 slots of a zero array;
  pixel 1048576 · b' + P goes to slot 500 · b' + label(b', P).  An update lands on a slot exactly when its index word,
  read signed, is the slot; with labels below 500 the word does not wrap, so the slot 500 · b + l collects the pixels of
  batch b labelled l, and the scatter read there is the segmented sum of the updates.  The result is reshaped to
  [8, 500] and label 0 sliced off, so entry (b, l') is slot 500 · b + (l' + 1).
-/
import proofs.«421037_j49374944034948_3_alg».proof.Proof.RefRead
import proofs.«421037_j49374944034948_3_alg».proof.Proof.Tail
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.StableHlo.Predicate

noncomputable section

namespace Cert.ReferenceIdeal.RefSeg

open Cert.ReferenceIdeal Cert.ReferenceIdeal.Gen Cert.ReferenceIdeal.Read Idealize.ShloMosaic Idealize.ShloMosaic.ValueIdx
open Cert.Seg

/-- The three scatters' dimension numbers: no window axes, the one operand axis inserted and indexed by the one
    component of the index vector, which lies along axis 1 of the indices. -/
abbrev dsc : ScatterDims S4000 S8388608x1 S8388608 := scatter_S4000_S8388608x1_S8388608_n_0_0_1

/-- The start of update `j`'s window: its index word, read signed. -/
theorem start_eq (j : S8388608.Idx) (idx : IVec S8388608x1 32) (a : Fin 1) :
    dsc.start j idx a = (idx (ix2 (j 0) 0)).toInt := by
  have ha : a = 0 := Subsingleton.elim _ _
  subst ha
  unfold ScatterDims.start
  rw [dif_pos (by decide)]
  congr 2
  funext b
  match b with
  | ⟨0, _⟩ =>
    unfold ScatterDims.siIdx
    rw [dif_neg (by show ¬ (0 : ℕ) = 1; decide)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by show (1 : ℕ) = 1; rfl)]
    apply Fin.ext
    show List.idxOf (0 : Fin 1) [0] = 0
    simp

/-- The one operand axis is an inserted one: no window coordinate. -/
theorem window_eq (j : S8388608.Idx) (a : Fin 1) : dsc.window j a = 0 := by
  have ha : a = 0 := Subsingleton.elim _ _
  subst ha
  unfold ScatterDims.window
  rw [dif_neg (by decide)]

/-- An update lands on slot `i` exactly when its index word, read signed, is `i`. -/
theorem resultIdx?_iff (j : S8388608.Idx) (idx : IVec S8388608x1 32) (i : S4000.Idx) :
    dsc.resultIdx? j idx = some i ↔ (idx (ix2 (j 0) 0)).toInt = ((i 0).val : ℤ) := by
  have hs := start_eq j idx 0
  have hw := window_eq j 0
  have hi : (i 0).val < 4000 := (i 0).isLt
  unfold ScatterDims.resultIdx?
  constructor
  · intro h
    split at h
    · rename_i hc
      have h1 : (0 : ℤ) ≤ dsc.start j idx 0 + ((dsc.window j 0 : ℕ) : ℤ) := (hc 0).1
      have h2 := congrFun (Option.some.inj h) 0
      have h3 : (dsc.start j idx 0 + ((dsc.window j 0 : ℕ) : ℤ)).toNat = (i 0).val := congrArg Fin.val h2
      rw [hs, hw] at h1 h3
      omega
    · cases h
  · intro hz
    rw [dif_pos (fun a => by
      have ha : a = 0 := Subsingleton.elim _ _
      subst ha
      show 0 ≤ dsc.start j idx 0 + ((dsc.window j 0 : ℕ) : ℤ) ∧ dsc.start j idx 0 + ((dsc.window j 0 : ℕ) : ℤ) < ((4000 : ℕ) : ℤ)
      rw [hs, hw]
      omega)]
    congr 1
    funext a
    have ha : a = 0 := Subsingleton.elim _ _
    subst ha
    apply Fin.ext
    show (dsc.start j idx 0 + ((dsc.window j 0 : ℕ) : ℤ)).toNat = (i 0).val
    rw [hs, hw]
    omega

/-- The index word of pixel `k` of all batches: its label plus 500 times its batch. -/
theorem word_eq (x1 : (⟨S8x1024x1024, .i32⟩ : BufTy).Contents (Elt Ideal)) (k : Fin 8388608) :
    val_main_v12 (F := Ideal) x1 (ix2 k 0) =
      val_main_v1 (F := Ideal) x1 (ix2 (⟨k.val / 1048576, by have := k.isLt; omega⟩ : Fin 8) (⟨k.val % 1048576, by omega⟩ : Fin 1048576))
        + BitVec.ofNat 32 (k.val / 1048576) * 500#32 := by
  rw [val_main_v12_apply, val_main_v8_apply, val_main_v7_apply, val_main_v6_apply, val_main_v5_apply,
    val_main_v3_apply, val_main_v2_apply, val_main_v4_apply, val_main_c_apply]
  unfold IntOp.addi IntOp.muli
  congr 1

/-- With labels below 500 nothing wraps: the word, read signed, is 500 · batch + label. -/
theorem word_toInt (x1 : (⟨S8x1024x1024, .i32⟩ : BufTy).Contents (Elt Ideal))
    (hT : ∀ j : S8x1048576.Idx, (val_main_v1 (F := Ideal) x1 j).toNat < 500) (k : Fin 8388608) :
    (val_main_v12 (F := Ideal) x1 (ix2 k 0)).toInt =
      ((500 * (k.val / 1048576) + (val_main_v1 (F := Ideal) x1 (ix2 (⟨k.val / 1048576, by have := k.isLt; omega⟩ : Fin 8) (⟨k.val % 1048576, by omega⟩ : Fin 1048576))).toNat : ℕ) : ℤ) := by
  have hk := k.isLt
  have hb : k.val / 1048576 < 8 := by omega
  have hlab := hT (ix2 (⟨k.val / 1048576, by omega⟩ : Fin 8) (⟨k.val % 1048576, by omega⟩ : Fin 1048576))
  have hnat : (val_main_v12 (F := Ideal) x1 (ix2 k 0)).toNat =
      500 * (k.val / 1048576) + (val_main_v1 (F := Ideal) x1 (ix2 (⟨k.val / 1048576, by omega⟩ : Fin 8) (⟨k.val % 1048576, by omega⟩ : Fin 1048576))).toNat := by
    rw [word_eq, BitVec.toNat_add, BitVec.toNat_mul, BitVec.toNat_ofNat]
    have h500 : (500#32 : BitVec 32).toNat = 500 := by decide
    rw [h500]
    omega
  rw [Idealize.ShloMosaic.StableHlo.Predicate.toInt_eq_toNat_of_lt (by rw [hnat]; omega), hnat]

/-- The scatter read at a slot: the operand there plus the updates of the pixels whose slot it is. -/
theorem scatter_read (x : S4000.Idx → EReal) (idx : IVec S8388608x1 32) (upd : S8388608.Idx → EReal)
    (key : Fin 8388608 → ℕ) (hkey : ∀ k : Fin 8388608, (idx (ix2 k 0)).toInt = ((key k : ℕ) : ℤ)) (i : S4000.Idx) :
    Ideal.hostScatterAdd dsc x idx upd i
      = x i + ∑ k ∈ Finset.univ.filter (fun k : Fin 8388608 => key k = (i 0).val), upd (ix1 k) := by
  unfold Ideal.hostScatterAdd
  refine congrArg (x i + ·) ?_
  rw [Finset.sum_filter, Finset.sum_filter]
  let e : S8388608.Idx ≃ Fin 8388608 := ⟨fun j => j 0, fun k => ix1 k, fun j => (eq_ix1 j).symm, fun k => rfl⟩
  refine Fintype.sum_equiv e _ _ (fun j => ?_)
  have hj : ix1 (e j) = j := (eq_ix1 j).symm
  rw [hj]
  refine if_congr ?_ rfl rfl
  rw [resultIdx?_iff, hkey (j 0)]
  exact Nat.cast_inj

/-- A scatter of per-pixel updates into the zero array, read at slot 500 · b + l: the statistic of the feature the
    updates are. -/
theorem scatter_stat (x1 : (⟨S8x1024x1024, .i32⟩ : BufTy).Contents (Elt Ideal))
    (hT : ∀ j : S8x1048576.Idx, (val_main_v1 (F := Ideal) x1 j).toNat < 500)
    (zero : S4000.Idx → EReal) (hzero : ∀ i, zero i = 0) (upd : S8388608.Idx → EReal)
    (f : Fin 8 → Fin 1048576 → EReal)
    (hupd : ∀ (b' : Fin 8) (P : Fin 1048576),
      upd (ix1 (⟨1048576 * b'.val + P.val, by have := b'.isLt; have := P.isLt; omega⟩ : Fin 8388608)) = f b' P)
    (b : Fin 8) (l : ℕ) (hl : l < 500) (i : S4000.Idx) (hi : (i 0).val = 500 * b.val + l) :
    Ideal.hostScatterAdd dsc zero (val_main_v12 (F := Ideal) x1) upd i
      = Cert.SegMath.seg f (lab (val_main_v1 (F := Ideal) x1)) b l := by
  rw [scatter_read zero _ upd _ (word_toInt x1 hT) i, hzero, zero_add, hi]
  refine Cert.SegMath.scatter_seg f (lab (val_main_v1 (F := Ideal) x1)) b l hl (fun b' P => hT (ix2 b' P)) _
    (fun k => upd (ix1 k)) (fun b' P => ?_) hupd
  have hP := P.isLt
  have hb' := b'.isLt
  have h1 : (1048576 * b'.val + P.val) / 1048576 = b'.val := by omega
  have h2 : (1048576 * b'.val + P.val) % 1048576 = P.val := by omega
  have e1 : (⟨(1048576 * b'.val + P.val) / 1048576, by omega⟩ : Fin 8) = b' := Fin.ext h1
  have e2 : (⟨(1048576 * b'.val + P.val) % 1048576, by omega⟩ : Fin 1048576) = P := Fin.ext h2
  show 500 * ((1048576 * b'.val + P.val) / 1048576)
      + (val_main_v1 (F := Ideal) x1 (ix2 (⟨(1048576 * b'.val + P.val) / 1048576, by omega⟩ : Fin 8)
          (⟨(1048576 * b'.val + P.val) % 1048576, by omega⟩ : Fin 1048576))).toNat
    = 500 * b'.val + (val_main_v1 (F := Ideal) x1 (ix2 b' P)).toNat
  rw [e1, e2, h1]

/-- An index of the (batch, channel, pixel) array is the one with its three coordinates. -/
theorem eq_ix3_of (q : S8x3x1048576.Idx) (b' : Fin 8) (ch : Fin 3) (P : Fin 1048576)
    (h0 : (q 0).val = b'.val) (h1 : (q 1).val = ch.val) (h2 : (q 2).val = P.val) : q = ix3 b' ch P := by
  funext a
  match a with
  | ⟨0, _⟩ => exact Fin.ext h0
  | ⟨1, _⟩ => exact Fin.ext h1
  | ⟨2, _⟩ => exact Fin.ext h2

/-- The update of pixel 1048576 · b' + P in the scatter of sums: the sum of its three channels. -/
theorem upd_s (x0 : (⟨S8x3x1024x1024, .f32⟩ : BufTy).Contents (Elt Ideal)) (b' : Fin 8) (P : Fin 1048576) :
    val_main_v10 (F := Ideal) x0 (ix1 (⟨1048576 * b'.val + P.val, by have := b'.isLt; have := P.isLt; omega⟩ : Fin 8388608))
      = feat (val_main_v0 (F := Ideal) x0) 0 b' P := by
  have hP := P.isLt
  have hb' := b'.isLt
  rw [val_main_v10_apply, val_main_v9_apply, val_main_cst_apply, Ideal.ofBits_def, Ideal.ofBits_zero_f32, zero_add]
  unfold feat
  refine Finset.sum_congr rfl (fun ch _ => ?_)
  rw [eq_ix3_of (idx_main_v9 (idx_main_v10 (ix1 (⟨1048576 * b'.val + P.val, by omega⟩ : Fin 8388608))) ch) b' ch P
    (by show (1048576 * b'.val + P.val) / 1048576 = b'.val; omega) rfl
    (by show (1048576 * b'.val + P.val) % 1048576 = P.val; omega)]

/-- At the ideal instance the host's accumulating scatter is the exact sum of the updates landing on each slot. -/
theorem host_scatter (x : FVec Ideal S4000 .f32) (idx : IVec S8388608x1 32) (upd : FVec Ideal S8388608 .f32) :
    Host.scatterAdd (F := Ideal) dsc x idx upd = Ideal.hostScatterAdd dsc x idx upd := rfl

/-- The scatters' operands: zero everywhere. -/
theorem zero11 (i : S4000.Idx) : val_main_v11 (F := Ideal) i = 0 := by
  rw [val_main_v11_apply, val_main_cst_0_apply, Ideal.ofBits_def, Ideal.ofBits_zero_f32]

/-- The same for the scatter of squares. -/
theorem zero18 (i : S4000.Idx) : val_main_v18 (F := Ideal) i = 0 := by
  rw [val_main_v18_apply, val_main_cst_2_apply, Ideal.ofBits_def, Ideal.ofBits_zero_f32]

/-- The same for the scatter of counts. -/
theorem zero23 (i : S4000.Idx) : val_main_v23 (F := Ideal) i = 0 := by
  rw [val_main_v23_apply, val_main_cst_4_apply, Ideal.ofBits_def, Ideal.ofBits_zero_f32]

/-- The slot of entry (b, l') of the sliced [8, 499] array: 500 · b + (l' + 1) of the flat one. -/
theorem slot_s (b : Fin 8) (l' : Fin 499) :
    ((idx_main_v14 (idx_main_v27 (ix2 b l'))) 0).val = 500 * b.val + (l'.val + 1) := by
  show b.val * 500 + (1 + l'.val) = _
  omega

/-- The same slot for the array of sums of squares. -/
theorem slot_ss (b : Fin 8) (l' : Fin 499) :
    ((idx_main_v21 (idx_main_v28 (ix2 b l'))) 0).val = 500 * b.val + (l'.val + 1) := by
  show b.val * 500 + (1 + l'.val) = _
  omega

/-- The same slot for the array of counts. -/
theorem slot_cnt (b : Fin 8) (l' : Fin 499) :
    ((idx_main_v26 (idx_main_v29 (ix2 b l'))) 0).val = 500 * b.val + (l'.val + 1) := by
  show b.val * 500 + (1 + l'.val) = _
  omega

/-- Sums: entry (b, l') of `s` (labels 1 … 499, so label l' + 1) is the channel sums of batch `b`'s pixels labelled l' + 1,
    when every label is below 500. -/
theorem s_apply (x0 : (⟨S8x3x1024x1024, .f32⟩ : BufTy).Contents (Elt Ideal)) (x1 : (⟨S8x1024x1024, .i32⟩ : BufTy).Contents (Elt Ideal))
    (hT : ∀ j : S8x1048576.Idx, (val_main_v1 (F := Ideal) x1 j).toNat < 500) (b : Fin 8) (l' : Fin 499) :
    val_main_v27 (F := Ideal) x0 x1 (ix2 b l') = stat (val_main_v0 (F := Ideal) x0) (val_main_v1 (F := Ideal) x1) 0 b (l'.val + 1) := by
  rw [val_main_v27_apply, val_main_v14_apply]
  unfold val_main_v13 stat
  rw [host_scatter]
  exact scatter_stat x1 hT (val_main_v11 (F := Ideal)) zero11 (val_main_v10 (F := Ideal) x0)
    (feat (val_main_v0 (F := Ideal) x0) 0) (upd_s x0) b (l'.val + 1) (by have := l'.isLt; omega)
    (idx_main_v14 (idx_main_v27 (ix2 b l'))) (slot_s b l')

/-- The update of pixel 1048576 · b' + P in the scatter of sums of squares: the sum of its three channels' squares. -/
theorem upd_ss (x0 : (⟨S8x3x1024x1024, .f32⟩ : BufTy).Contents (Elt Ideal)) (b' : Fin 8) (P : Fin 1048576) :
    val_main_v17 (F := Ideal) x0 (ix1 (⟨1048576 * b'.val + P.val, by have := b'.isLt; have := P.isLt; omega⟩ : Fin 8388608))
      = feat (val_main_v0 (F := Ideal) x0) 1 b' P := by
  have hP := P.isLt
  have hb' := b'.isLt
  rw [val_main_v17_apply, val_main_v16_apply, val_main_cst_1_apply, Ideal.ofBits_def, Ideal.ofBits_zero_f32, zero_add]
  unfold feat
  refine Finset.sum_congr rfl (fun ch _ => ?_)
  rw [val_main_v15_apply, Ideal.mulf_def,
    eq_ix3_of (idx_main_v16 (idx_main_v17 (ix1 (⟨1048576 * b'.val + P.val, by omega⟩ : Fin 8388608))) ch) b' ch P
      (by show (1048576 * b'.val + P.val) / 1048576 = b'.val; omega) rfl
      (by show (1048576 * b'.val + P.val) % 1048576 = P.val; omega)]

/-- The update of every pixel in the scatter of counts: one. -/
theorem upd_cnt (X : T8x3xP.Idx → EReal) (b' : Fin 8) (P : Fin 1048576) :
    val_main_v22 (F := Ideal) (ix1 (⟨1048576 * b'.val + P.val, by have := b'.isLt; have := P.isLt; omega⟩ : Fin 8388608))
      = feat X 2 b' P := by
  rw [val_main_v22_apply, val_main_cst_3_apply, Ideal.ofBits_def]
  unfold feat
  exact IdealRules.sign_bit.ideal_onePat .f32

/-- Sums of squares. -/
theorem ss_apply (x0 : (⟨S8x3x1024x1024, .f32⟩ : BufTy).Contents (Elt Ideal)) (x1 : (⟨S8x1024x1024, .i32⟩ : BufTy).Contents (Elt Ideal))
    (hT : ∀ j : S8x1048576.Idx, (val_main_v1 (F := Ideal) x1 j).toNat < 500) (b : Fin 8) (l' : Fin 499) :
    val_main_v28 (F := Ideal) x0 x1 (ix2 b l') = stat (val_main_v0 (F := Ideal) x0) (val_main_v1 (F := Ideal) x1) 1 b (l'.val + 1) := by
  have e19 : val_main_v19 (F := Ideal) x1 = val_main_v12 (F := Ideal) x1 := rfl
  rw [val_main_v28_apply, val_main_v21_apply]
  unfold val_main_v20 stat
  rw [host_scatter, e19]
  exact scatter_stat x1 hT (val_main_v18 (F := Ideal)) zero18 (val_main_v17 (F := Ideal) x0)
    (feat (val_main_v0 (F := Ideal) x0) 1) (upd_ss x0) b (l'.val + 1) (by have := l'.isLt; omega)
    (idx_main_v21 (idx_main_v28 (ix2 b l'))) (slot_ss b l')

/-- Counts (the feature is one whatever the image). -/
theorem cnt_apply (X : T8x3xP.Idx → EReal) (x1 : (⟨S8x1024x1024, .i32⟩ : BufTy).Contents (Elt Ideal))
    (hT : ∀ j : S8x1048576.Idx, (val_main_v1 (F := Ideal) x1 j).toNat < 500) (b : Fin 8) (l' : Fin 499) :
    val_main_v29 (F := Ideal) x1 (ix2 b l') = stat X (val_main_v1 (F := Ideal) x1) 2 b (l'.val + 1) := by
  have e24 : val_main_v24 (F := Ideal) x1 = val_main_v12 (F := Ideal) x1 := rfl
  rw [val_main_v29_apply, val_main_v26_apply]
  unfold val_main_v25 stat
  rw [host_scatter, e24]
  exact scatter_stat x1 hT (val_main_v23 (F := Ideal)) zero23 (val_main_v22 (F := Ideal))
    (feat X 2) (upd_cnt X) b (l'.val + 1) (by have := l'.isLt; omega)
    (idx_main_v26 (idx_main_v29 (ix2 b l'))) (slot_cnt b l')

end Cert.ReferenceIdeal.RefSeg

end
-- ==== Proof.KPlanes.lean ====
/-
  The host operations after the region, up to the closing arithmetic: the [8, 12, 128] result array re-laid as
  (batch, feature, label) = [8, 3, 512] (row 4c + h, column lo ↦ feature c, label 128 h + lo), the three features' planes,
  labels 1 … 499 of each.
-/
import proofs.«421037_j49374944034948_3_alg».proof.Proof.Gen.KernelIdeal
import proofs.«421037_j49374944034948_3_alg».proof.Proof.Tail

noncomputable section

namespace Cert.KernelIdeal.KTail

open Cert.KernelIdeal Cert.KernelIdeal.Gen Idealize.ShloMosaic
open Cert.Seg

variable {F : FTy → Type} [FloatOps F]

/-- The result array re-laid as (batch, feature, label). -/
def planes (O : Vec F S8x12x128 .f32) : Vec F S8x3x512 .f32 :=
  shapeCast S8x3x512 (shapeCast S8x3x4x128 O shapeCasts_S8x12x128_S8x3x4x128) shapeCasts_S8x3x4x128_S8x3x512

/-- Feature 0 (sums), labels 1 … 499. -/
def sOf (O : Vec F S8x12x128 .f32) : Vec F S8x499 .f32 :=
  extractStridedSlice S8x499 ![0, 1]
    (shapeCast S8x512 (extractStridedSlice S8x1x512 ![0, 0, 0] (planes O) slices_S8x3x512_S8x1x512_0_0_0) shapeCasts_S8x1x512_S8x512)
    slices_S8x512_S8x499_0_1
/-- Feature 1 (sums of squares), labels 1 … 499. -/
def ssOf (O : Vec F S8x12x128 .f32) : Vec F S8x499 .f32 :=
  extractStridedSlice S8x499 ![0, 1]
    (shapeCast S8x512 (extractStridedSlice S8x1x512 ![0, 1, 0] (planes O) slices_S8x3x512_S8x1x512_0_1_0) shapeCasts_S8x1x512_S8x512)
    slices_S8x512_S8x499_0_1
/-- Feature 2 (counts), labels 1 … 499. -/
def cntOf (O : Vec F S8x12x128 .f32) : Vec F S8x499 .f32 :=
  extractStridedSlice S8x499 ![0, 1]
    (shapeCast S8x512 (extractStridedSlice S8x1x512 ![0, 2, 0] (planes O) slices_S8x3x512_S8x1x512_0_2_0) shapeCasts_S8x1x512_S8x512)
    slices_S8x512_S8x499_0_1

/-- What the host operations after the region leave in the program's result, from the result array. -/
def resultOf (O : Vec F S8x12x128 .f32) : Vec F S_ .f32 :=
  tail (F := F) bcast_S_S8x499 reducesTo_S8x499_S8_d1 h_S_ bcast_S_S8 reducesTo_S8_S_d0 natLt_1_32 (sOf O) (ssOf O) (cntOf O)

end Cert.KernelIdeal.KTail

end
-- ==== Proof.KTail.lean ====
/-
  The kernel program's result: what the host operations after the region leave in the result buffer, from the result
  array the region leaves.
-/
import proofs.«421037_j49374944034948_3_alg».proof.Proof.Gen.KernelIdeal.Frame
import proofs.«421037_j49374944034948_3_alg».proof.Proof.KPlanes
import Idealize.ShloMosaic.Lib.StableHlo.Run

noncomputable section

namespace Cert.KernelIdeal.KTail

open Cert.KernelIdeal Cert.KernelIdeal.Gen Idealize.ShloMosaic Idealize.ShloMosaic.TcCoe Idealize.SL.Sem Idealize.ShloMosaic.StableHlo
open Cert.Seg

variable {F : FTy → Type} [FloatOps F]
variable (m : (ℓ : Loc nD τ sig) → Buf (Elt F) ℓ) (ρ : Dev nD → PrngReg)

set_option maxRecDepth 8192 in
set_option maxHeartbeats 4000000 in
/-- The host operations after the region, run from any contents `W` of the buffers: the result buffer ends at the closing
    arithmetic of the planes of what `W` holds in the region's result array. -/
theorem tail_of_valuation (W : Valuation τ sig (Elt F)) :
    StableHlo.after (List.flatten [hostOps1, hostOps1_1, hostOps1_2, hostOps1_3, hostOps1_4, hostOps1_5, hostOps1_6]) W (Proc.devRef .tc main_v39)
      = resultOf (F := F) (W (Proc.devRef .tc main_v2)) := by
  simp only [hostOps1, hostOps1_1, hostOps1_2, hostOps1_3, hostOps1_4, hostOps1_5, hostOps1_6, List.flatten_cons, List.flatten_nil,
    List.append_nil, List.cons_append, List.nil_append]
  after_results
  simp only [TRef.ofBuf, TRef.toBuf, cast_eq]
  rfl

/-- The program's result buffer after the run. -/
theorem tail_result (c : Dev nD) :
    Pipeline.afterTail₀ cfgs (dats m) 0 (V0 m) [hostOps1, hostOps1_1, hostOps1_2, hostOps1_3, hostOps1_4, hostOps1_5, hostOps1_6] c main_v39
      = resultOf ((dats m 0 c).arrAt 2 cfg0.N) := by
  unfold Pipeline.afterTail₀
  rw [tail_of_valuation]
  exact congrArg resultOf (Pipeline.withArrays_arr spec0 launch0.win.arr_inj c (V0 m c) (fun w => (dats m 0 c).arrAt w cfg0.N) 2)

end Cert.KernelIdeal.KTail

end
-- ==== Proof.KDefs.lean ====
/-
  One grid point's update of the accumulator: from the point's block of the image `x0` (1 × 3 channels × 8192 pixels),
  its block of labels `x1` (1 × 1 × 8192) and what the accumulator held, to what it holds afterwards:
  accumulator + features · one-hot, a [12, 8192] × [8192, 128] product whose row 4c + h carries feature c masked to
  the labels whose upper part is h and whose column lo selects the labels whose lower seven bits are lo.
-/
import proofs.«421037_j49374944034948_3_alg».proof.Proof.Gen.KernelIdeal.Skeleton

noncomputable section

namespace Cert.KernelIdeal.Step

open Cert.KernelIdeal Cert.KernelIdeal.Gen Idealize.ShloMosaic

variable {F : FTy → Type} [FloatOps F]

/-- The accumulator after a point, from the point's two blocks and the accumulator before it. -/
def step (x0 : Vec F S1x3x8192 .f32) (x1 : Vec F S1x1x8192 .i32) (acc : Vec F S12x128 .f32) : Vec F S12x128 .f32 :=
  k0_pay1 (k0_pay6 x1) (k0_pay7 x1) (k0_pay8 x0 x1) (k0_pay9 x0) acc

end Cert.KernelIdeal.Step

end
-- ==== Proof.KAcc.lean ====
/-
  The accumulator point by point, and the result array it is written to.
-/
import proofs.«421037_j49374944034948_3_alg».proof.Proof.KDefs
import proofs.«421037_j49374944034948_3_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic

noncomputable section

namespace Cert.KernelIdeal.Acc

open Cert.KernelIdeal Cert.KernelIdeal.Gen Cert.KernelIdeal.Step Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Between a batch's first and last points the scratch ends at the update of what it held. -/
theorem piece_B (c : Dev nD) (i : grid0.Coords) (arg2 : Memref sig .tc .vmem S1x3x8192 .f32) (harg2 : arg2.IsWhole) (arg3 : Memref sig .tc .vmem S1x1x8192 .i32) (harg3 : arg3.IsWhole) (arg4 : Memref sig .tc .vmem S1x12x128 .f32) (harg4 : arg4.IsWhole) (arg5 : Memref sig .tc .vmem S12x128 .f32) (harg5 : arg5.IsWhole) (hc0 : ¬cond0_0 i) (hc1 : ¬cond0_1 i)
    (x0 : Vec F S1x3x8192 .f32) (x1 : Vec F S1x1x8192 .i32) (xs0 : Vec F S12x128 .f32) :
    sout0_B_0 c i arg2 harg2 arg3 harg3 arg4 harg4 arg5 harg5 hc0 hc1 x0 x1 xs0 = step x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread,
    View.ld_unit_zero (S := S1x3x8192) hz3, View.ld_unit_zero (S := S1x1x8192) hz3, View.ld_unit_zero (S := S12x128) hz2]
  rfl

/-- At a batch's last point the scratch ends at the update of what it held. -/
theorem piece_C (c : Dev nD) (i : grid0.Coords) (arg2 : Memref sig .tc .vmem S1x3x8192 .f32) (harg2 : arg2.IsWhole) (arg3 : Memref sig .tc .vmem S1x1x8192 .i32) (harg3 : arg3.IsWhole) (arg4 : Memref sig .tc .vmem S1x12x128 .f32) (harg4 : arg4.IsWhole) (arg5 : Memref sig .tc .vmem S12x128 .f32) (harg5 : arg5.IsWhole) (hc0 : ¬cond0_0 i) (hc1 : cond0_1 i)
    (x0 : Vec F S1x3x8192 .f32) (x1 : Vec F S1x1x8192 .i32) (xs0 : Vec F S12x128 .f32) :
    sout0_C_0 c i arg2 harg2 arg3 harg3 arg4 harg4 arg5 harg5 hc0 hc1 x0 x1 xs0 = step x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S1x3x8192) hz3, View.ld_unit_zero (S := S1x1x8192) hz3, View.ld_unit_zero (S := S12x128) hz2]
  rfl

/-- At a batch's last point the output block is that update, with a unit axis in front. -/
theorem piece_C_out (c : Dev nD) (i : grid0.Coords) (arg2 : Memref sig .tc .vmem S1x3x8192 .f32) (harg2 : arg2.IsWhole) (arg3 : Memref sig .tc .vmem S1x1x8192 .i32) (harg3 : arg3.IsWhole) (arg4 : Memref sig .tc .vmem S1x12x128 .f32) (harg4 : arg4.IsWhole) (arg5 : Memref sig .tc .vmem S12x128 .f32) (harg5 : arg5.IsWhole) (hc0 : ¬cond0_0 i) (hc1 : cond0_1 i)
    (x0 : Vec F S1x3x8192 .f32) (x1 : Vec F S1x1x8192 .i32) (xs0 : Vec F S12x128 .f32) :
    out0_C_2 c i arg2 harg2 arg3 harg3 arg4 harg4 arg5 harg5 hc0 hc1 x0 x1 xs0 = k0_pay2 (step x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3]
  simp only [View.readAt_eq_ld, harg2.read_unread, harg3.read_unread, harg5.read_unread,
    View.readCov_unit_zero (S := S12x128) _ hz2,
    View.ld_unit_zero (S := S1x3x8192) hz3, View.ld_unit_zero (S := S1x1x8192) hz3, View.ld_unit_zero (S := S12x128) hz2]
  rfl

/-- At a batch's first point the scratch is reset to the zero block, then updated. -/
theorem piece_A (c : Dev nD) (i : grid0.Coords) (arg2 : Memref sig .tc .vmem S1x3x8192 .f32) (harg2 : arg2.IsWhole) (arg3 : Memref sig .tc .vmem S1x1x8192 .i32) (harg3 : arg3.IsWhole) (arg4 : Memref sig .tc .vmem S1x12x128 .f32) (harg4 : arg4.IsWhole) (arg5 : Memref sig .tc .vmem S12x128 .f32) (harg5 : arg5.IsWhole) (hc0 : cond0_0 i) (hc1 : ¬cond0_1 i)
    (x0 : Vec F S1x3x8192 .f32) (x1 : Vec F S1x1x8192 .i32) :
    sout0_A_0 c i arg2 harg2 arg3 harg3 arg4 harg4 arg5 harg5 hc0 hc1 x0 x1 = step x0 x1 k0_pay3 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S12x128) hz2]
  simp only [View.readAt_eq_ld, harg2.read_unread, harg3.read_unread,
    View.readCov_unit_zero (S := S12x128) _ hz2,
    View.ld_unit_zero (S := S1x3x8192) hz3, View.ld_unit_zero (S := S1x1x8192) hz3]
  rfl

/-! ## A case's pieces at a grid point -/

theorem sA (c : Dev nD) (t : Fin cfg0.N) (hc0 : cond0_0 (grid0.coords t)) (hc1 : ¬cond0_1 (grid0.coords t)) :
    sout0_A_0 c (grid0.coords t) (ms0_0 t) (hs0_0 t) (ms0_1 t) (hs0_1 t) (ms0_2 t) (hs0_2 t) scM0_0 (Memref.isWhole_whole _) hc0 hc1 (iblk m c 0 t) (iblk m c 1 t) = step (iblk m c 0 t) (iblk m c 1 t) k0_pay3 :=
  piece_A c (grid0.coords t) (ms0_0 t) (hs0_0 t) (ms0_1 t) (hs0_1 t) (ms0_2 t) (hs0_2 t) scM0_0 (Memref.isWhole_whole _) hc0 hc1 (iblk m c 0 t) (iblk m c 1 t)

theorem sB (c : Dev nD) (t : Fin cfg0.N) (hc0 : ¬cond0_0 (grid0.coords t)) (hc1 : ¬cond0_1 (grid0.coords t))
    (xs0 : Vec F S12x128 .f32) :
    sout0_B_0 c (grid0.coords t) (ms0_0 t) (hs0_0 t) (ms0_1 t) (hs0_1 t) (ms0_2 t) (hs0_2 t) scM0_0 (Memref.isWhole_whole _) hc0 hc1 (iblk m c 0 t) (iblk m c 1 t) xs0 = step (iblk m c 0 t) (iblk m c 1 t) xs0 :=
  piece_B c (grid0.coords t) (ms0_0 t) (hs0_0 t) (ms0_1 t) (hs0_1 t) (ms0_2 t) (hs0_2 t) scM0_0 (Memref.isWhole_whole _) hc0 hc1 (iblk m c 0 t) (iblk m c 1 t) xs0

theorem sC (c : Dev nD) (t : Fin cfg0.N) (hc0 : ¬cond0_0 (grid0.coords t)) (hc1 : cond0_1 (grid0.coords t))
    (xs0 : Vec F S12x128 .f32) :
    sout0_C_0 c (grid0.coords t) (ms0_0 t) (hs0_0 t) (ms0_1 t) (hs0_1 t) (ms0_2 t) (hs0_2 t) scM0_0 (Memref.isWhole_whole _) hc0 hc1 (iblk m c 0 t) (iblk m c 1 t) xs0 = step (iblk m c 0 t) (iblk m c 1 t) xs0 :=
  piece_C c (grid0.coords t) (ms0_0 t) (hs0_0 t) (ms0_1 t) (hs0_1 t) (ms0_2 t) (hs0_2 t) scM0_0 (Memref.isWhole_whole _) hc0 hc1 (iblk m c 0 t) (iblk m c 1 t) xs0

theorem oC (c : Dev nD) (t : Fin cfg0.N) (hc0 : ¬cond0_0 (grid0.coords t)) (hc1 : cond0_1 (grid0.coords t))
    (xs0 : Vec F S12x128 .f32) :
    out0_C_2 c (grid0.coords t) (ms0_0 t) (hs0_0 t) (ms0_1 t) (hs0_1 t) (ms0_2 t) (hs0_2 t) scM0_0 (Memref.isWhole_whole _) hc0 hc1 (iblk m c 0 t) (iblk m c 1 t) xs0 = k0_pay2 (step (iblk m c 0 t) (iblk m c 1 t) xs0) :=
  piece_C_out c (grid0.coords t) (ms0_0 t) (hs0_0 t) (ms0_1 t) (hs0_1 t) (ms0_2 t) (hs0_2 t) scM0_0 (Memref.isWhole_whole _) hc0 hc1 (iblk m c 0 t) (iblk m c 1 t) xs0

/-- The accumulator after point `n`: at the first point of a batch (n ≡ 0 mod 128) the update of the zero block,
    elsewhere the update of what the point before left. -/
def chain (c : Dev nD) : (n : ℕ) → n < cfg0.N → Vec F S12x128 .f32
  | 0, h => step (iblk m c 0 ⟨0, h⟩) (iblk m c 1 ⟨0, h⟩) k0_pay3
  | n + 1, h =>
    if (n + 1) % 128 = 0 then step (iblk m c 0 ⟨n + 1, h⟩) (iblk m c 1 ⟨n + 1, h⟩) k0_pay3
    else step (iblk m c 0 ⟨n + 1, h⟩) (iblk m c 1 ⟨n + 1, h⟩) (chain c n (Nat.lt_of_succ_lt h))

/-- The scratch after point `n` is the accumulator. -/
theorem scratch_eq (c : Dev nD) (n : ℕ) (h : n < cfg0.N) : (outsAt0 m c n h).2 = chain m c n h := by
  induction n with
  | zero =>
    rw [outsAt0_A m c ⟨0, h⟩ rfl (show ¬(0 : ℕ) % 128 = 127 by decide)]
    dsimp only
    exact sA m c ⟨0, h⟩ _ _
  | succ n ih =>
    have hN : n + 1 < 1024 := lt_of_lt_of_eq h N_0
    by_cases h0 : (n + 1) % 128 = 0
    · have h1 : ¬(n + 1) % 128 = 127 := by omega
      rw [outsAt0_A m c ⟨n + 1, h⟩ h0 h1]
      dsimp only
      refine (sA m c ⟨n + 1, h⟩ _ _).trans ?_
      exact (if_pos h0).symm
    · by_cases h1 : (n + 1) % 128 = 127
      · rw [outsAt0_C m c ⟨n + 1, h⟩ h0 h1]
        dsimp only
        refine (sC m c ⟨n + 1, h⟩ _ _ _).trans ?_
        show step _ _ (outsAt0 m c n _).2 = chain m c (n + 1) h
        rw [ih]
        exact (if_neg h0).symm
      · rw [outsAt0_B m c ⟨n + 1, h⟩ h0 h1]
        dsimp only
        refine (sB m c ⟨n + 1, h⟩ _ _ _).trans ?_
        show step _ _ (outsAt0 m c n _).2 = chain m c (n + 1) h
        rw [ih]
        exact (if_neg h0).symm

/-- At a batch's last point the output block is the accumulator, with a unit axis in front. -/
theorem out_eq (c : Dev nD) (n : ℕ) (h : n < cfg0.N) (h127 : n % 128 = 127) :
    (outsAt0 m c n h).1 = k0_pay2 (chain m c n h) := by
  have h0 : ¬n % 128 = 0 := by omega
  have hs := scratch_eq m c n h
  rw [outsAt0_C m c ⟨n, h⟩ h0 h127] at hs ⊢
  dsimp only at hs ⊢
  rw [← hs]
  exact (oC m c ⟨n, h⟩ _ _ _).trans (congrArg k0_pay2 (sC m c ⟨n, h⟩ _ _ _).symm)

theorem lastPoint_lt (b : Fin 8) : 128 * b.val + 127 < cfg0.N := by
  rw [show cfg0.N = 1024 from N_0]; have := b.isLt; omega

/-! ## The result array -/

/-- The output window's block index over the grid: the batch, then zeros. -/
theorem idx2 : ∀ t : Fin cfg0.N, win0_2.index t (0 : Fin 3) = t.val / 128 ∧ win0_2.index t (1 : Fin 3) = 0
    ∧ win0_2.index t (2 : Fin 3) = 0 :=
  (by decide +kernel : ∀ t : Fin grid0.N, _)

theorem chain_congr (c : Dev nD) {n n' : ℕ} (e : n = n') (h : n < cfg0.N) (h' : n' < cfg0.N) :
    chain m c n h = chain m c n' h' := by subst e; rfl

/-- The accumulator after batch `b`'s last point, named by the batch or by the point. -/
theorem G_at (c : Dev nD) (t : Fin cfg0.N) (h127 : t.val % 128 = 127) (b : Fin 8) (p p' : Fin 12) (q q' : Fin 128)
    (h0 : b.val = t.val / 128) (h1 : p'.val = p.val) (h2 : q'.val = q.val) :
    chain m c (128 * b.val + 127) (lastPoint_lt b) (ix2 p' q') = chain m c t.val t.isLt (ix2 p q) := by
  obtain rfl : p' = p := Fin.ext h1
  obtain rfl : q' = q := Fin.ext h2
  rw [chain_congr m c (show 128 * b.val + 127 = t.val by omega) (lastPoint_lt b) t.isLt]

/-- The unit axis in front: entry (0, p, q) of the output block is entry (p, q) of the accumulator. -/
theorem pay2_at (X : Vec F S12x128 .f32) (y : S1x12x128.Idx) : k0_pay2 X y = X (ix2 (y 1) (y 2)) :=
  (congrArg (k0_pay2 X) (eq_ix3 y)).trans (shapeCast_ab_1ab_apply X shapeCasts_S12x128_S1x12x128 (y 0) (y 1) (y 2))

/-- What a batch's last point writes back is its block of the result. -/
theorem flushed_eq (c : Dev nD) (t : Fin cfg0.N) (hf : (cfg0.win 2).flush t = true) :
    (dats m 0 c).flushed 2 t = ((cfg0.win 2).blk t).view.read (Elt F) (fun j : S8x12x128.Idx =>
      chain m c (128 * (j 0).val + 127) (lastPoint_lt (j 0)) (ix2 (j 1) (j 2))) := by
  have h127 : t.val % 128 = 127 := (flush0_2 t).mp hf
  show (cfg0.win 2).cut (grid0.coords t) ((dats m 0 c).after 2 t) = _
  rw [after0_2, out_eq m c t.val t.isLt h127]
  obtain ⟨e0, e1, e2⟩ := idx2 t
  funext y
  have hy0 : (y 0).val < 1 := (y 0).isLt
  have h0 : ((((cfg0.win 2).blk t).view.emb y) 0).val = t.val / 128 := by
    show win0_2.index t (0 : Fin 3) * 1 + 1 * (y 0).val = t.val / 128
    omega
  have h1 : ((((cfg0.win 2).blk t).view.emb y) 1).val = (y 1).val := by
    show win0_2.index t (1 : Fin 3) * 12 + 1 * (y 1).val = (y 1).val
    omega
  have h2 : ((((cfg0.win 2).blk t).view.emb y) 2).val = (y 2).val := by
    show win0_2.index t (2 : Fin 3) * 128 + 1 * (y 2).val = (y 2).val
    omega
  refine Eq.trans (pay2_at (chain m c t.val t.isLt) y) ?_
  exact (G_at m c t h127 _ (y 1) _ (y 2) _ h0 h1 h2).symm

/-- Every entry of the result is in the block its batch's last point writes back. -/
theorem cover (i : S8x12x128.Idx) :
    ∃ t : Fin cfg0.N, (cfg0.win 2).flush t = true ∧ i ∈ ((cfg0.win 2).blk t).view.set := by
  have hb : (i 0).val < 8 := (i 0).isLt
  have hp : (i 1).val < 12 := (i 1).isLt
  have hq : (i 2).val < 128 := (i 2).isLt
  obtain ⟨t, ht⟩ : ∃ t : Fin cfg0.N, t.val = 128 * (i 0).val + 127 := ⟨⟨_, lastPoint_lt (i 0)⟩, rfl⟩
  obtain ⟨e0, e1, e2⟩ := idx2 t
  refine ⟨t, (flush0_2 t).mpr (by omega), ?_⟩
  show i ∈ ((View.whole main_v2).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 12 ≤ (i 1).val ∧ (i 1).val < win0_2.index t (1 : Fin 3) * 12 + 12; omega
  | ⟨2, _⟩ => show win0_2.index t (2 : Fin 3) * 128 ≤ (i 2).val ∧ (i 2).val < win0_2.index t (2 : Fin 3) * 128 + 128; omega

/-- The result array after the region: batch `b`'s [12, 128] block is the accumulator after the batch's last point. -/
theorem final (c : Dev nD) :
    (dats m 0 c).arrAt 2 cfg0.N = fun j : S8x12x128.Idx =>
      chain m c (128 * (j 0).val + 127) (lastPoint_lt (j 0)) (ix2 (j 1) (j 2)) :=
  (dats m 0 c).arrAt_eq_of_cover 2 _ (flushed_eq m c) cover

end Cert.KernelIdeal.Acc

end
-- ==== Proof.KStep.lean ====
/-
  The accumulator update read at one entry.

  A point's block of labels is clamped to [0, 511] (the identity on labels below 500), split into an upper part
  (shift right by seven) and a lower part (the low seven bits), and turned into two 0/1 matrices: a [4, 8192] one whose
  row h marks the pixels whose upper part is h, and an [8192, 128] one whose column lo marks the pixels whose lower part
  is lo.  The left operand stacks three [4, 8192] pieces, the channels' sum times the row mask, the sum of the channels'
  squares times the row mask, and the row mask itself; its product with the column mask, a sum over the 8192 pixels,
  is added to the accumulator.  At entry (4c + h, lo) the summand at pixel p is feature c of p times the two
  indicators, which is feature c where the label is 128 h + lo and zero elsewhere.
-/
import proofs.«421037_j49374944034948_3_alg».proof.Proof.KDefs
import proofs.«421037_j49374944034948_3_alg».proof.Proof.Tail
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.KernelIdeal.Step

open Cert.KernelIdeal Cert.KernelIdeal.Gen Idealize.ShloMosaic Idealize.ShloMosaic.ValueIdx

/-- Feature `c` of pixel `p` of a block: the three channels' sum, the sum of their squares, or one. -/
def bfeat (x0 : Vec Ideal S1x3x8192 .f32) (c : Fin 3) (p : Fin 8192) : EReal :=
  match c with
  | ⟨0, _⟩ => ∑ ch : Fin 3, x0 (ix3 0 ch p)
  | ⟨1, _⟩ => ∑ ch : Fin 3, x0 (ix3 0 ch p) * x0 (ix3 0 ch p)
  | ⟨_ + 2, _⟩ => 1

/-! ## The labels: the clamp, the upper part's rows and the lower part's columns -/

/-- The labels' vector at pixel p is the block's word there. -/
theorem lab_cast (x1 : Vec Ideal S1x1x8192 .i32) (p : Fin 8192) :
    (shapeCast S8192 x1 Facts₀.shapeCasts_S1x1x8192_S8192 : IVec S8192 32) (ix1 p) = x1 (ix3 0 0 p) :=
  shapeCast_apply x1 _ (ix1 p) (ix3 0 0 p) (by
    rw [Shape.rowMajor_val_three, Shape.rowMajor_val_one]
    show (0 * 1 + 0) * 8192 + p.val = p.val
    omega)

/-- A word below 500 is left alone by the clamp to [0, 511]. -/
theorem clamp_id (w : BitVec 32) (hw : w.toNat < 500) : IntOp.minsi 511#32 (IntOp.maxsi 0#32 w) = w := by
  have h1 : IntOp.maxsi 0#32 w = w := by
    unfold IntOp.maxsi
    rw [if_neg]
    rw [BitVec.slt_iff_toInt_lt]
    have e := BitVec.toInt_eq_toNat_cond w
    have : (0#32 : BitVec 32).toInt = 0 := by decide
    omega
  rw [h1]
  unfold IntOp.minsi
  rw [if_neg]
  rw [BitVec.slt_iff_toInt_lt]
  have e := BitVec.toInt_eq_toNat_cond w
  have : (511#32 : BitVec 32).toInt = 511 := by decide
  omega

theorem pay5_apply (x1 : Vec Ideal S1x1x8192 .i32) (p : Fin 8192) (hp : (x1 (ix3 0 0 p)).toNat < 500) :
    k0_pay5 (F := Ideal) x1 (ix1 p) = x1 (ix3 0 0 p) := by
  unfold k0_pay5
  show IntOp.minsi 511#32 (IntOp.maxsi 0#32 ((shapeCast S8192 x1 Facts₀.shapeCasts_S1x1x8192_S8192 : IVec S8192 32) (ix1 p))) = _
  rw [lab_cast, clamp_id _ hp]

/-- A compare bit, widened and converted: one where the words agree, zero elsewhere. -/
theorem ind_word (a c : BitVec 32) :
    (FloatOps.sitofp (F := Ideal) .f32 ((IntOp.cmpi .eq a c).setWidth 32) : EReal) = if a = c then (1 : EReal) else 0 := by
  show ((((IntOp.cmpi .eq a c).setWidth 32).toInt : ℝ) : EReal) = _
  unfold IntOp.cmpi
  by_cases hac : a = c
  · rw [if_pos hac, hac]
    simp
  · rw [if_neg hac]
    have : (a == c) = false := by simpa using hac
    simp [this]

theorem pay6_apply (x1 : Vec Ideal S1x1x8192 .i32) (h : Fin 4) (p : Fin 8192) :
    k0_pay6 (F := Ideal) x1 (ix2 h p)
      = if IntOp.shrsi .vector (k0_pay5 (F := Ideal) x1 (ix1 p)) 7#32 = BitVec.ofNat 32 h.val then (1 : EReal) else 0 := by
  unfold k0_pay6
  dsimp only
  rw [truncf_apply, sitofp_apply, extui_apply]
  show FloatOps.sitofp (F := Ideal) .f32 ((IntOp.cmpi .eq
      (broadcastTo S4x8192 (shapeCast S1x8192 (shapeCast S1x8192 (shrsi (k0_pay5 (F := Ideal) x1) (broadcast S8192 7#32)) Facts₀.shapeCasts_S8192_S1x8192) Facts₀.shapeCasts_S1x8192_S1x8192) Facts₀.broadcasts_S1x8192_S4x8192 (ix2 h p))
      (iota .tc S4x8192 32 [0] Facts₀.iota_S4x8192_d0_w32 (ix2 h p))).setWidth 32) = _
  rw [ind_word, iota_single_apply, broadcastTo_1b_ab_apply, shapeCast_self, shapeCast_a_1a_apply]
  rfl

/-- A vector cast to one column reads, at (p, u), the vector at p. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- One column broadcast over many reads, at (p, c), the column at p. -/
theorem broadcastTo_a1_ab_apply {α : Type} {a b : ℕ} (ha : a ≠ 1) (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

theorem pay7_apply (x1 : Vec Ideal S1x1x8192 .i32) (p : Fin 8192) (lo : Fin 128) :
    k0_pay7 (F := Ideal) x1 (ix2 p lo)
      = if IntOp.andi (k0_pay5 (F := Ideal) x1 (ix1 p)) 127#32 = BitVec.ofNat 32 lo.val then (1 : EReal) else 0 := by
  unfold k0_pay7
  dsimp only
  rw [truncf_apply, sitofp_apply, extui_apply]
  show FloatOps.sitofp (F := Ideal) .f32 ((IntOp.cmpi .eq
      (broadcastTo S8192x128 (shapeCast S8192x1 (shapeCast S8192x1 (andi (k0_pay5 (F := Ideal) x1) (broadcast S8192 127#32)) Facts₀.shapeCasts_S8192_S8192x1) Facts₀.shapeCasts_S8192x1_S8192x1) Facts₀.broadcasts_S8192x1_S8192x128 (ix2 p lo))
      (iota .tc S8192x128 32 [1] Facts₀.iota_S8192x128_d1_w32 (ix2 p lo))).setWidth 32) = _
  rw [ind_word, iota_single_apply, broadcastTo_a1_ab_apply (by decide), shapeCast_self, shapeCast_a_a1_apply]
  rfl

/-- A word below 500 splits into its upper part (shifted down by seven) and its lower seven bits. -/
theorem bits_iff (w : BitVec 32) (hw : w.toNat < 500) (h : Fin 4) (lo : Fin 128) :
    (IntOp.shrsi .vector w 7#32 = BitVec.ofNat 32 h.val ∧ IntOp.andi w 127#32 = BitVec.ofNat 32 lo.val)
      ↔ w.toNat = 128 * h.val + lo.val := by
  have hmsb : w.msb = false := by
    rw [BitVec.msb_eq_false_iff_two_mul_lt]; omega
  have e1 : (IntOp.shrsi .vector w 7#32).toNat = w.toNat / 128 := by
    unfold IntOp.shrsi
    rw [if_pos (by decide)]
    rw [BitVec.sshiftRight_eq', BitVec.sshiftRight_eq_of_msb_false hmsb, BitVec.toNat_ushiftRight, Nat.shiftRight_eq_div_pow]
    rfl
  have e2 : (IntOp.andi w 127#32).toNat = w.toNat % 128 := by
    unfold IntOp.andi
    rw [BitVec.toNat_and]
    show w.toNat &&& (2 ^ 7 - 1) = _
    rw [Nat.and_two_pow_sub_one_eq_mod]
  have e3 : (BitVec.ofNat 32 h.val).toNat = h.val := by
    rw [BitVec.toNat_ofNat]; have := h.isLt; omega
  have e4 : (BitVec.ofNat 32 lo.val).toNat = lo.val := by
    rw [BitVec.toNat_ofNat]; have := lo.isLt; omega
  rw [← BitVec.toNat_inj, ← BitVec.toNat_inj, e1, e2, e3, e4]
  have := h.isLt; have := lo.isLt
  omega

/-! ## The features: the channels' sum and the sum of their squares -/

theorem pay4_apply (x0 : Vec Ideal S1x3x8192 .f32) (ch : Fin 3) (p : Fin 8192) :
    k0_pay4 (F := Ideal) x0 (ix2 ch p) = x0 (ix3 0 ch p) := by
  unfold k0_pay4
  exact shapeCast_1ab_ab_apply x0 _ ch p

/-- The sum over the three channels, at a pixel. -/
theorem lane_sum (src : FVec Ideal S3x8192 .f32) (p : Fin 8192) :
    multiReduction (F := Ideal) .add [0] S8192 src 0x00000000#32 Facts₀.reduces_S3x8192_S8192 (.inl rfl) rfl (ix1 p)
      = ∑ ch : Fin 3, src (ix2 ch p) := by
  refine (Ideal.multiReduction_add_single src 0x00000000#32 Facts₀.reduces_S3x8192_S8192 (.inl rfl) rfl (ix1 p)).trans ?_
  show ∑ k : Fin 3, src (Facts₀.reduces_S3x8192_S8192.lift (ix1 p) k) = _
  refine Finset.sum_congr rfl fun k _ => congrArg src ?_
  funext a
  match a with
  | ⟨0, _⟩ => rfl
  | ⟨1, _⟩ => rfl

theorem pay9_apply (x0 : Vec Ideal S1x3x8192 .f32) (h : Fin 4) (p : Fin 8192) :
    k0_pay9 (F := Ideal) x0 (ix2 h p) = ∑ ch : Fin 3, x0 (ix3 0 ch p) * x0 (ix3 0 ch p) := by
  unfold k0_pay9
  dsimp only
  rw [broadcastTo_1b_ab_apply, shapeCast_self, shapeCast_a_1a_apply, truncf_apply, lane_sum]
  refine Finset.sum_congr rfl fun ch _ => ?_
  rw [mulf_apply, pay4_apply]

theorem pay8_apply (x0 : Vec Ideal S1x3x8192 .f32) (x1 : Vec Ideal S1x1x8192 .i32) (h : Fin 4) (p : Fin 8192) :
    k0_pay8 (F := Ideal) x0 x1 (ix2 h p) = (∑ ch : Fin 3, x0 (ix3 0 ch p)) * k0_pay6 (F := Ideal) x1 (ix2 h p) := by
  unfold k0_pay8
  dsimp only
  rw [mulf_apply, broadcastTo_1b_ab_apply, shapeCast_self, shapeCast_a_1a_apply, truncf_apply, lane_sum]
  congr 1
  refine Finset.sum_congr rfl fun ch _ => ?_
  rw [pay4_apply]

/-! ## The stacked left operand and the product -/

/-- Three [4, 8192] pieces stacked along the rows: row r = 4 k + h of the stack is row h of piece k. -/
theorem cat_0 (A B C : FVec Ideal S4x8192 .bf16) (r : Fin 12) (h : Fin 4) (p : Fin 8192) (hr : r.val = 4 * 0 + h.val) :
    concatenate S12x8192 0 [⟨S4x8192, A⟩, ⟨S4x8192, B⟩, ⟨S4x8192, C⟩] Facts₀.concatenates_S4x8192_S4x8192_S4x8192_S12x8192_d0 (ix2 r p)
      = A (ix2 h p) :=
  concatenate_apply_piece 0 _ _ (ix2 r p) 0 (by show (0 : ℕ) < 3; omega) S4x8192 A rfl rfl 0 rfl (ix2 h p)
    (fun b hb => by
      match b with
      | ⟨0, _⟩ => exact absurd rfl hb
      | ⟨1, _⟩ => rfl)
    (by show 0 + h.val = r.val; omega)

theorem cat_1 (A B C : FVec Ideal S4x8192 .bf16) (r : Fin 12) (h : Fin 4) (p : Fin 8192) (hr : r.val = 4 * 1 + h.val) :
    concatenate S12x8192 0 [⟨S4x8192, A⟩, ⟨S4x8192, B⟩, ⟨S4x8192, C⟩] Facts₀.concatenates_S4x8192_S4x8192_S4x8192_S12x8192_d0 (ix2 r p)
      = B (ix2 h p) :=
  concatenate_apply_piece 0 _ _ (ix2 r p) 1 (by show (1 : ℕ) < 3; omega) S4x8192 B rfl rfl 4 rfl (ix2 h p)
    (fun b hb => by
      match b with
      | ⟨0, _⟩ => exact absurd rfl hb
      | ⟨1, _⟩ => rfl)
    (by show 4 + h.val = r.val; omega)

theorem cat_2 (A B C : FVec Ideal S4x8192 .bf16) (r : Fin 12) (h : Fin 4) (p : Fin 8192) (hr : r.val = 4 * 2 + h.val) :
    concatenate S12x8192 0 [⟨S4x8192, A⟩, ⟨S4x8192, B⟩, ⟨S4x8192, C⟩] Facts₀.concatenates_S4x8192_S4x8192_S4x8192_S12x8192_d0 (ix2 r p)
      = C (ix2 h p) :=
  concatenate_apply_piece 0 _ _ (ix2 r p) 2 (by show (2 : ℕ) < 3; omega) S4x8192 C rfl rfl 8 rfl (ix2 h p)
    (fun b hb => by
      match b with
      | ⟨0, _⟩ => exact absurd rfl hb
      | ⟨1, _⟩ => rfl)
    (by show 8 + h.val = r.val; omega)

theorem lhs_0 (j : S12x128.Idx) (k : dot_S12x8192_S8192x128_S12x128_1_0_0_1_n_n.contr.Idx) :
    (dot_S12x8192_S8192x128_S12x128_1_0_0_1_n_n.lhsIdx j k 0 : ℕ) = j 0 := by
  simp [DotDims.lhsIdx, dot_S12x8192_S8192x128_S12x128_1_0_0_1_n_n]; rfl
theorem lhs_1 (j : S12x128.Idx) (k : dot_S12x8192_S8192x128_S12x128_1_0_0_1_n_n.contr.Idx) :
    (dot_S12x8192_S8192x128_S12x128_1_0_0_1_n_n.lhsIdx j k 1 : ℕ) = k ⟨0, by decide⟩ :=
  dot_S12x8192_S8192x128_S12x128_1_0_0_1_n_n.lhsIdx_val_of_single (cl := 1) rfl j k
theorem rhs_0 (j : S12x128.Idx) (k : dot_S12x8192_S8192x128_S12x128_1_0_0_1_n_n.contr.Idx) :
    (dot_S12x8192_S8192x128_S12x128_1_0_0_1_n_n.rhsIdx j k 0 : ℕ) = k ⟨0, by decide⟩ :=
  dot_S12x8192_S8192x128_S12x128_1_0_0_1_n_n.rhsIdx_val_of_single (cr := 0) rfl j k
theorem rhs_1 (j : S12x128.Idx) (k : dot_S12x8192_S8192x128_S12x128_1_0_0_1_n_n.contr.Idx) :
    (dot_S12x8192_S8192x128_S12x128_1_0_0_1_n_n.rhsIdx j k 1 : ℕ) = j 1 := by
  simp [DotDims.rhsIdx, dot_S12x8192_S8192x128_S12x128_1_0_0_1_n_n]; rfl

/-- The product into the zero accumulator, at an entry: the sum over the pixels of row times column. -/
theorem mm_apply (L : FVec Ideal S12x8192 .bf16) (R : FVec Ideal S8192x128 .bf16) (r : Fin 12) (lo : Fin 128) :
    matmul dot_S12x8192_S8192x128_S12x128_1_0_0_1_n_n none L R (constant (F := Ideal) S12x128 .f32 0x00000000#32) (ix2 r lo)
      = ∑ p : Fin 8192, L (ix2 r p) * R (ix2 p lo) := by
  show FloatOps.matmul dot_S12x8192_S8192x128_S12x128_1_0_0_1_n_n none L R (constant (F := Ideal) S12x128 .f32 0x00000000#32) (ix2 r lo) = _
  rw [Ideal.matmul_constant_zero_apply]
  rw [← Equiv.sum_comp (contrEquiv1 dot_S12x8192_S8192x128_S12x128_1_0_0_1_n_n 8192 rfl rfl).symm]
  refine Finset.sum_congr rfl fun p _ => ?_
  have hk := contrEquiv1_symm_val dot_S12x8192_S8192x128_S12x128_1_0_0_1_n_n 8192 rfl rfl p
  congr 1
  · refine congrArg L (funext fun a => Fin.ext ?_)
    match a with
    | ⟨0, _⟩ => exact lhs_0 _ _
    | ⟨1, _⟩ => exact (lhs_1 _ _).trans hk
  · refine congrArg R (funext fun a => Fin.ext ?_)
    match a with
    | ⟨0, _⟩ => exact (rhs_0 _ _).trans hk
    | ⟨1, _⟩ => exact rhs_1 _ _

/-! ## The update at an entry -/

/-- Feature times the two indicators at a pixel labelled below 500: the feature where the label is 128 h + lo, zero elsewhere. -/
theorem summand (x1 : Vec Ideal S1x1x8192 .i32) (p : Fin 8192) (hp : (x1 (ix3 0 0 p)).toNat < 500) (h : Fin 4) (lo : Fin 128)
    (f : EReal) :
    f * k0_pay6 (F := Ideal) x1 (ix2 h p) * k0_pay7 (F := Ideal) x1 (ix2 p lo)
      = if (x1 (ix3 0 0 p)).toNat = 128 * h.val + lo.val then f else 0 := by
  rw [pay6_apply, pay7_apply, pay5_apply x1 p hp, Cert.SegMath.mul_ind_mul_ind]
  exact if_congr (bits_iff _ hp h lo) rfl rfl

/-- The two indicators alone. -/
theorem summand_one (x1 : Vec Ideal S1x1x8192 .i32) (p : Fin 8192) (hp : (x1 (ix3 0 0 p)).toNat < 500) (h : Fin 4) (lo : Fin 128) :
    k0_pay6 (F := Ideal) x1 (ix2 h p) * k0_pay7 (F := Ideal) x1 (ix2 p lo)
      = if (x1 (ix3 0 0 p)).toNat = 128 * h.val + lo.val then (1 : EReal) else 0 := by
  have e := summand x1 p hp h lo 1
  rwa [one_mul] at e

/-- The update at an entry: what the accumulator held plus the sum over the pixels of the stacked left operand's row
    times the one-hot column. -/
theorem step_unfold (x0 : Vec Ideal S1x3x8192 .f32) (x1 : Vec Ideal S1x1x8192 .i32) (acc : Vec Ideal S12x128 .f32)
    (r : Fin 12) (lo : Fin 128) :
    step (F := Ideal) x0 x1 acc (ix2 r lo)
      = acc (ix2 r lo) + ∑ p : Fin 8192,
          concatenate S12x8192 0 [⟨S4x8192, k0_pay8 (F := Ideal) x0 x1⟩,
            ⟨S4x8192, mulf (k0_pay9 (F := Ideal) x0) (k0_pay6 (F := Ideal) x1)⟩, ⟨S4x8192, k0_pay6 (F := Ideal) x1⟩]
            Facts₀.concatenates_S4x8192_S4x8192_S4x8192_S12x8192_d0 (ix2 r p)
          * k0_pay7 (F := Ideal) x1 (ix2 p lo) := by
  unfold step k0_pay1
  rw [shapeCast_self, addf_apply, mm_apply]

/-- Entry (4c + h, lo) of the accumulator after a point whose labels are all below 500: what it held, plus feature `c`
    summed over the block's pixels labelled 128 h + lo. -/
theorem step_apply (x0 : Vec Ideal S1x3x8192 .f32) (x1 : Vec Ideal S1x1x8192 .i32) (acc : Vec Ideal S12x128 .f32)
    (hx1 : ∀ p : Fin 8192, (x1 (ix3 0 0 p)).toNat < 500) (c : Fin 3) (h : Fin 4) (lo : Fin 128) :
    step (F := Ideal) x0 x1 acc (ix2 ⟨4 * c.val + h.val, by have := c.isLt; have := h.isLt; omega⟩ lo)
      = acc (ix2 ⟨4 * c.val + h.val, by have := c.isLt; have := h.isLt; omega⟩ lo)
        + ∑ p : Fin 8192, if (x1 (ix3 0 0 p)).toNat = 128 * h.val + lo.val then bfeat x0 c p else 0 := by
  rw [step_unfold]
  congr 1
  refine Finset.sum_congr rfl fun p _ => ?_
  match c with
  | ⟨0, _⟩ =>
    rw [cat_0 _ _ _ _ h p rfl, pay8_apply]
    exact summand x1 p (hx1 p) h lo _
  | ⟨1, _⟩ =>
    rw [cat_1 _ _ _ _ h p rfl, mulf_apply, pay9_apply]
    exact summand x1 p (hx1 p) h lo _
  | ⟨2, _⟩ =>
    rw [cat_2 _ _ _ _ h p rfl]
    exact summand_one x1 p (hx1 p) h lo

end Cert.KernelIdeal.Step

end
-- ==== Proof.KBlocks.lean ====
/-
  What a grid point's blocks read: point n = 128 b + t reads, of batch b, the 8192 pixels from 8192 t on.
-/
import proofs.«421037_j49374944034948_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- Where the two input windows sit at every grid point: block (n / 128, 0, n % 128). -/
theorem index0 : ∀ t : Fin cfg0.N, win0_0.index t 0 = t.val / 128 ∧ win0_0.index t 1 = 0 ∧ win0_0.index t 2 = t.val % 128 :=
  (by decide +kernel : ∀ t : Fin grid0.N, win0_0.index t 0 = t.val / 128 ∧ win0_0.index t 1 = 0 ∧ win0_0.index t 2 = t.val % 128)
theorem index1 : ∀ t : Fin cfg0.N, win0_1.index t 0 = t.val / 128 ∧ win0_1.index t 1 = 0 ∧ win0_1.index t 2 = t.val % 128 :=
  (by decide +kernel : ∀ t : Fin grid0.N, win0_1.index t 0 = t.val / 128 ∧ win0_1.index t 1 = 0 ∧ win0_1.index t 2 = t.val % 128)

theorem batch_lt (n : ℕ) (h : n < cfg0.N) : n / 128 < 8 := by
  rw [show cfg0.N = 1024 from N_0] at h; omega
theorem pixel_lt (n : ℕ) (p : Fin 8192) : 8192 * (n % 128) + p.val < 1048576 := by
  have := p.isLt; omega

/-- The image block of point `n`, channel `ch`, position `p`. -/
theorem iblk0_apply (c : Dev nD) (n : ℕ) (h : n < cfg0.N) (ch : Fin 3) (p : Fin 8192) :
    (iblk m c 0 ⟨n, h⟩ : Vec F S1x3x8192 .f32) (ix3 0 ch p)
      = (V m c main_v0 : Vec F S8x3x1048576 .f32) (ix3 ⟨n / 128, batch_lt n h⟩ ch ⟨8192 * (n % 128) + p.val, pixel_lt n p⟩) := by
  obtain ⟨h0, h1, h2⟩ := index0 ⟨n, h⟩
  unfold iblk
  rw [View.read_apply]
  show V m c main_v0 _ = V m c main_v0 _
  congr 1
  funext a
  apply Fin.ext
  match a with
  | ⟨0, _⟩ => show win0_0.index ⟨n, h⟩ 0 * 1 + 1 * (0 : Fin 1).val = n / 128; rw [h0]; show n / 128 * 1 + 1 * 0 = n / 128; omega
  | ⟨1, _⟩ => show win0_0.index ⟨n, h⟩ 1 * 3 + 1 * ch.val = ch.val; rw [h1]; omega
  | ⟨2, _⟩ => show win0_0.index ⟨n, h⟩ 2 * 8192 + 1 * p.val = 8192 * (n % 128) + p.val; rw [h2]; show n % 128 * 8192 + 1 * p.val = _; omega

/-- The label block of point `n`, position `p`. -/
theorem iblk1_apply (c : Dev nD) (n : ℕ) (h : n < cfg0.N) (p : Fin 8192) :
    (iblk m c 1 ⟨n, h⟩ : Vec F S1x1x8192 .i32) (ix3 0 0 p)
      = (V m c main_v1 : Vec F S8x1x1048576 .i32) (ix3 ⟨n / 128, batch_lt n h⟩ 0 ⟨8192 * (n % 128) + p.val, pixel_lt n p⟩) := by
  obtain ⟨h0, h1, h2⟩ := index1 ⟨n, h⟩
  unfold iblk
  rw [View.read_apply]
  show V m c main_v1 _ = V m c main_v1 _
  congr 1
  funext a
  apply Fin.ext
  match a with
  | ⟨0, _⟩ => show win0_1.index ⟨n, h⟩ 0 * 1 + 1 * (0 : Fin 1).val = n / 128; rw [h0]; show n / 128 * 1 + 1 * 0 = n / 128; omega
  | ⟨1, _⟩ => show win0_1.index ⟨n, h⟩ 1 * 1 + 1 * (0 : Fin 1).val = (0 : Fin 1).val; rw [h1]; show 0 * 1 + 1 * 0 = 0; omega
  | ⟨2, _⟩ => show win0_1.index ⟨n, h⟩ 2 * 8192 + 1 * p.val = 8192 * (n % 128) + p.val; rw [h2]; show n % 128 * 8192 + 1 * p.val = _; omega

/-- The region finds the image reshaped to (batch, channel, pixel). -/
theorem V_main_v0 (c : Dev nD) :
    (V m c main_v0 : Vec F S8x3x1048576 .f32)
      = shapeCast S8x3x1048576 (m ((c : Thread nD τ).loc main_arg0)) shapeCasts_S8x3x1024x1024_S8x3x1048576 := by
  show StableHlo.after (List.flatten [hostOps0]) (fun b => m (c, b)) (Proc.devRef .tc main_v0) = _
  simp only [List.flatten_cons, List.flatten_nil, List.append_nil]
  after_results
  rfl

/-- The region finds the labels reshaped to (batch, 1, pixel). -/
theorem V_main_v1 (c : Dev nD) :
    (V m c main_v1 : Vec F S8x1x1048576 .i32)
      = shapeCast S8x1x1048576 (m ((c : Thread nD τ).loc main_arg1)) shapeCasts_S8x1024x1024_S8x1x1048576 := by
  show StableHlo.after (List.flatten [hostOps0]) (fun b => m (c, b)) (Proc.devRef .tc main_v1) = _
  simp only [List.flatten_cons, List.flatten_nil, List.append_nil]
  after_results
  rfl

/-- Reshaping [8, 1024, 1024] to (batch, 1, pixel) or to (batch, pixel) reads the same element. -/
theorem labels_two_ways {α : Type} (a : S8x1024x1024.Idx → α) (h3 : S8x1024x1024.ShapeCasts S8x1x1048576)
    (h2 : S8x1024x1024.ShapeCasts (⟨2, ![8, 1048576]⟩ : Shape)) (b : Fin 8) (P : Fin 1048576) :
    shapeCast S8x1x1048576 a h3 (ix3 b 0 P) = shapeCast (⟨2, ![8, 1048576]⟩ : Shape) a h2 (ix2 b P) := by
  have hq : P.val / 1024 < 1024 := by have := P.isLt; omega
  have hr : P.val % 1024 < 1024 := Nat.mod_lt _ (by omega)
  have e3 := shapeCast_apply a h3 (ix3 b (0 : Fin 1) P) (ix3 b (⟨P.val / 1024, hq⟩ : Fin 1024) (⟨P.val % 1024, hr⟩ : Fin 1024)) (by
    rw [Shape.rowMajor_val_three, Shape.rowMajor_val_three]
    show (b.val * 1024 + P.val / 1024) * 1024 + P.val % 1024 = (b.val * 1 + 0) * 1048576 + P.val
    omega)
  have e2 := shapeCast_apply a h2 (ix2 b P) (ix3 b (⟨P.val / 1024, hq⟩ : Fin 1024) (⟨P.val % 1024, hr⟩ : Fin 1024)) (by
    rw [Shape.rowMajor_val_three, Shape.rowMajor_val_two]
    show (b.val * 1024 + P.val / 1024) * 1024 + P.val % 1024 = b.val * 1048576 + P.val
    omega)
  exact e3.trans e2.symm

end Cert.KernelIdeal.Blocks

end
-- ==== Proof.KStat.lean ====
/-
  The kernel's result array and its three planes, as statistics of the image and the labels.

  Point n = 128 b + t of the grid reads pixels 8192 t … 8192 t + 8191 of batch b; its update adds, into entry
  (4c + h, lo) of the accumulator, feature c summed over those pixels whose label is 128 h + lo.  The accumulator is reset
  at the first tile of a batch and written to the batch's block of the result array after the last, so that block's entry
  (4c + h, lo) is feature c summed over ALL the batch's pixels labelled 128 h + lo.  Re-laid as (batch, feature, label) and
  cut to labels 1 … 499, the three planes are the statistics of the three features.
-/
import proofs.«421037_j49374944034948_3_alg».proof.Proof.KAcc
import proofs.«421037_j49374944034948_3_alg».proof.Proof.KStep
import proofs.«421037_j49374944034948_3_alg».proof.Proof.KBlocks
import proofs.«421037_j49374944034948_3_alg».proof.Proof.KPlanes
import proofs.«421037_j49374944034948_3_alg».proof.Proof.Tail

noncomputable section

namespace Cert.KernelIdeal.KStat

open Cert.KernelIdeal Cert.KernelIdeal.Gen Cert.KernelIdeal.Step Cert.KernelIdeal.Acc Cert.KernelIdeal.Blocks Cert.KernelIdeal.KTail
open Idealize.ShloMosaic Idealize.ShloMosaic.TcCoe Idealize.SL.Sem Idealize.ShloMosaic.ValueIdx
open Cert.Seg Cert.SegMath

variable (m : (ℓ : Loc nD τ sig) → Buf (Elt Ideal) ℓ) (c : Dev nD)
variable (X : T8x3xP.Idx → EReal) (T : T8xP.Idx → BitVec 32)

/-- The contribution of position `p` of tile `tt` of batch `bb` to the statistic of feature `cc` and label `l`
    (zero outside the grid). -/
def term (cc : Fin 3) (l : ℕ) (bb tt : ℕ) (p : Fin 8192) : EReal :=
  if hb : bb < 8 then
    if ht : tt < 128 then
      (if lab T ⟨bb, hb⟩ ⟨8192 * tt + p.val, by have := p.isLt; omega⟩ = l then
        feat X cc ⟨bb, hb⟩ ⟨8192 * tt + p.val, by have := p.isLt; omega⟩ else 0)
    else 0
  else 0

section
variable (hX : ∀ i, (V m c main_v0 : Vec Ideal S8x3x1048576 .f32) i = X i)
variable (hT1 : ∀ (b : Fin 8) (P : Fin 1048576), (V m c main_v1 : Vec Ideal S8x1x1048576 .i32) (ix3 b 0 P) = T (ix2 b P))
variable (hT : ∀ (b : Fin 8) (P : Fin 1048576), (T (ix2 b P)).toNat < 500)
include hX hT1 hT

/-- A point's label block holds the labels of its pixels. -/
theorem lab_blk (n : ℕ) (h : n < cfg0.N) (p : Fin 8192) :
    ((iblk m c 1 ⟨n, h⟩ : Vec Ideal S1x1x8192 .i32) (ix3 0 0 p)).toNat
      = lab T ⟨n / 128, batch_lt n h⟩ ⟨8192 * (n % 128) + p.val, pixel_lt n p⟩ := by
  rw [iblk1_apply, hT1]
  rfl

omit hX hT1 hT in
/-- A block whose three channels at position `p` are the image's at pixel `P` of batch `b` has that pixel's features. -/
theorem bfeat_eq (x0 : Vec Ideal S1x3x8192 .f32) (b : Fin 8) (P : Fin 1048576) (p : Fin 8192)
    (hx : ∀ ch : Fin 3, x0 (ix3 0 ch p) = X (ix3 b ch P)) (cc : Fin 3) : bfeat x0 cc p = feat X cc b P := by
  match cc with
  | ⟨0, _⟩ =>
    show (∑ ch : Fin 3, x0 (ix3 0 ch p)) = ∑ ch : Fin 3, X (ix3 b ch P)
    exact Finset.sum_congr rfl fun ch _ => hx ch
  | ⟨1, _⟩ =>
    show (∑ ch : Fin 3, x0 (ix3 0 ch p) * x0 (ix3 0 ch p)) = ∑ ch : Fin 3, X (ix3 b ch P) * X (ix3 b ch P)
    exact Finset.sum_congr rfl fun ch _ => by rw [hx ch]
  | ⟨2, _⟩ => rfl

/-- A point's image block holds the features of its pixels. -/
theorem feat_blk (n : ℕ) (h : n < cfg0.N) (cc : Fin 3) (p : Fin 8192) :
    bfeat (iblk m c 0 ⟨n, h⟩ : Vec Ideal S1x3x8192 .f32) cc p
      = feat X cc ⟨n / 128, batch_lt n h⟩ ⟨8192 * (n % 128) + p.val, pixel_lt n p⟩ :=
  bfeat_eq X (iblk m c 0 ⟨n, h⟩ : Vec Ideal S1x3x8192 .f32) _ _ p (fun ch => (iblk0_apply m c n h ch p).trans (hX _)) cc

/-- One point's update at entry (4 cc + hh, lo). -/
theorem step_blk (n : ℕ) (h : n < cfg0.N) (acc : Vec Ideal S12x128 .f32) (cc : Fin 3) (hh : Fin 4) (lo : Fin 128) :
    step (F := Ideal) (iblk m c 0 ⟨n, h⟩) (iblk m c 1 ⟨n, h⟩) acc (ix2 ⟨4 * cc.val + hh.val, by have := cc.isLt; have := hh.isLt; omega⟩ lo)
      = acc (ix2 ⟨4 * cc.val + hh.val, by have := cc.isLt; have := hh.isLt; omega⟩ lo)
        + ∑ p : Fin 8192, term X T cc (128 * hh.val + lo.val) (n / 128) (n % 128) p := by
  have hx1 : ∀ p : Fin 8192, ((iblk m c 1 ⟨n, h⟩ : Vec Ideal S1x1x8192 .i32) (ix3 0 0 p)).toNat < 500 := fun p => by
    rw [lab_blk m c X T hX hT1 hT n h p]; exact hT _ _
  rw [step_apply (iblk m c 0 ⟨n, h⟩) (iblk m c 1 ⟨n, h⟩) acc hx1 cc hh lo]
  congr 1
  refine Finset.sum_congr rfl fun p _ => ?_
  unfold term
  rw [dif_pos (batch_lt n h), dif_pos (Nat.mod_lt n (by norm_num)), lab_blk m c X T hX hT1 hT n h p,
    feat_blk m c X T hX hT1 hT n h cc p]

omit hX hT1 hT in
/-- The zero block. -/
theorem zero_apply (j : S12x128.Idx) : (k0_pay3 (F := Ideal) : Vec Ideal S12x128 .f32) j = 0 := by
  unfold k0_pay3
  rw [shapeCast_self]
  show Ideal.ofBits .f32 0x00000000#32 = 0
  exact Ideal.ofBits_zero_f32

/-- The accumulator's entry (4 cc + hh, lo) after point `n`. -/
theorem chain_apply (cc : Fin 3) (hh : Fin 4) (lo : Fin 128) : ∀ (n : ℕ) (h : n < cfg0.N),
    chain m c n h (ix2 ⟨4 * cc.val + hh.val, by have := cc.isLt; have := hh.isLt; omega⟩ lo)
      = accum (fun n' => ∑ p : Fin 8192, term X T cc (128 * hh.val + lo.val) (n' / 128) (n' % 128) p) n
  | 0, h => by
    show step (F := Ideal) (iblk m c 0 ⟨0, h⟩) (iblk m c 1 ⟨0, h⟩) (k0_pay3 (F := Ideal)) _ = 0 + _
    rw [step_blk m c X T hX hT1 hT 0 h _ cc hh lo, zero_apply]
  | n + 1, h => by
    by_cases h0 : (n + 1) % 128 = 0
    · have e : chain m c (n + 1) h = step (F := Ideal) (iblk m c 0 ⟨n + 1, h⟩) (iblk m c 1 ⟨n + 1, h⟩) (k0_pay3 (F := Ideal)) := by
        show (if (n + 1) % 128 = 0 then _ else _) = _
        rw [if_pos h0]
      rw [e, step_blk m c X T hX hT1 hT (n + 1) h _ cc hh lo, zero_apply]
      show _ = (if (n + 1) % 128 = 0 then _ else _)
      rw [if_pos h0]
    · have e : chain m c (n + 1) h = step (F := Ideal) (iblk m c 0 ⟨n + 1, h⟩) (iblk m c 1 ⟨n + 1, h⟩) (chain m c n (Nat.lt_of_succ_lt h)) := by
        show (if (n + 1) % 128 = 0 then _ else _) = _
        rw [if_neg h0]
      rw [e, step_blk m c X T hX hT1 hT (n + 1) h _ cc hh lo, chain_apply cc hh lo n (Nat.lt_of_succ_lt h)]
      show _ = (if (n + 1) % 128 = 0 then _ else _)
      rw [if_neg h0]

/-- THE RESULT ARRAY: entry (b, 4 cc + hh, lo) is feature `cc` summed over batch `b`'s pixels labelled 128 hh + lo. -/
theorem final_stat (b : Fin 8) (cc : Fin 3) (hh : Fin 4) (lo : Fin 128) :
    ((dats m 0 c).arrAt 2 cfg0.N : Vec Ideal S8x12x128 .f32) (ix3 b ⟨4 * cc.val + hh.val, by have := cc.isLt; have := hh.isLt; omega⟩ lo)
      = stat X T cc b (128 * hh.val + lo.val) := by
  rw [Acc.final m c]
  show chain m c (128 * b.val + 127) (lastPoint_lt b) (ix2 ⟨4 * cc.val + hh.val, _⟩ lo) = _
  rw [chain_apply m c X T hX hT1 hT cc hh lo]
  unfold stat
  refine accum_seg (feat X cc) (lab T) b (128 * hh.val + lo.val) _ (fun t => ?_)
  show (∑ p : Fin 8192, term X T cc (128 * hh.val + lo.val) ((128 * b.val + t.val) / 128) ((128 * b.val + t.val) % 128) p) = _
  have e1 : (128 * b.val + t.val) / 128 = b.val := by have := t.isLt; omega
  have e2 : (128 * b.val + t.val) % 128 = t.val := by have := t.isLt; omega
  rw [e1, e2]
  refine Finset.sum_congr rfl fun p _ => ?_
  unfold term
  rw [dif_pos b.isLt, dif_pos t.isLt]

end

/-- The result array re-laid as (batch, feature, label): label L of feature `cc` is row 4 cc + L / 128, column L % 128. -/
theorem planes_apply (O : Vec Ideal S8x12x128 .f32) (b : Fin 8) (cc : Fin 3) (L : Fin 512) :
    planes O (ix3 b cc L)
      = O (ix3 b ⟨4 * cc.val + L.val / 128, by have := cc.isLt; have := L.isLt; omega⟩ ⟨L.val % 128, Nat.mod_lt _ (by norm_num)⟩) := by
  have hq : L.val / 128 < 4 := by have := L.isLt; omega
  have hr : L.val % 128 < 128 := Nat.mod_lt _ (by norm_num)
  unfold planes
  refine (shapeCast_apply _ shapeCasts_S8x3x4x128_S8x3x512 (ix3 b cc L) (ix4 b cc (⟨L.val / 128, hq⟩ : Fin 4) (⟨L.val % 128, hr⟩ : Fin 128)) (by
    rw [Shape.rowMajor_val_four, Shape.rowMajor_val_three]
    show ((b.val * 3 + cc.val) * 4 + L.val / 128) * 128 + L.val % 128 = (b.val * 3 + cc.val) * 512 + L.val
    omega)).trans ?_
  exact shapeCast_apply O shapeCasts_S8x12x128_S8x3x4x128 (ix4 b cc (⟨L.val / 128, hq⟩ : Fin 4) (⟨L.val % 128, hr⟩ : Fin 128))
    (ix3 b ⟨4 * cc.val + L.val / 128, by have := cc.isLt; omega⟩ ⟨L.val % 128, hr⟩) (by
    rw [Shape.rowMajor_val_three, Shape.rowMajor_val_four]
    show (b.val * 12 + (4 * cc.val + L.val / 128)) * 128 + L.val % 128 = ((b.val * 3 + cc.val) * 4 + L.val / 128) * 128 + L.val % 128
    omega)

/-- A feature's plane cut to labels 1 … 499, read at (b, l'): the plane at label l' + 1. -/
theorem cut_apply (O : Vec Ideal S8x12x128 .f32) (cc : Fin 3) (off : Fin 3 → Nat) (hoff : off = ![0, cc.val, 0])
    (hs : S8x3x512.Slices off S8x1x512) (b : Fin 8) (l' : Fin 499) :
    extractStridedSlice S8x499 ![0, 1]
        (shapeCast S8x512 (extractStridedSlice S8x1x512 off (planes O) hs) shapeCasts_S8x1x512_S8x512) slices_S8x512_S8x499_0_1 (ix2 b l')
      = planes O (ix3 b cc ⟨l'.val + 1, by have := l'.isLt; omega⟩) := by
  subst hoff
  have hL : l'.val + 1 < 512 := by have := l'.isLt; omega
  refine (extractStridedSlice_apply ![0, 1] _ slices_S8x512_S8x499_0_1 (ix2 b l') (ix2 b (⟨l'.val + 1, hL⟩ : Fin 512)) (fun a => by
    match a with
    | ⟨0, _⟩ => show b.val = 0 + b.val; omega
    | ⟨1, _⟩ => show l'.val + 1 = 1 + l'.val; omega)).trans ?_
  refine (shapeCast_apply _ shapeCasts_S8x1x512_S8x512 (ix2 b (⟨l'.val + 1, hL⟩ : Fin 512)) (ix3 b (0 : Fin 1) (⟨l'.val + 1, hL⟩ : Fin 512)) (by
    rw [Shape.rowMajor_val_three, Shape.rowMajor_val_two]
    show (b.val * 1 + 0) * 512 + (l'.val + 1) = b.val * 512 + (l'.val + 1)
    omega)).trans ?_
  exact extractStridedSlice_apply ![0, cc.val, 0] (planes O) hs (ix3 b (0 : Fin 1) (⟨l'.val + 1, hL⟩ : Fin 512)) (ix3 b cc ⟨l'.val + 1, hL⟩) (fun a => by
    match a with
    | ⟨0, _⟩ => show b.val = 0 + b.val; omega
    | ⟨1, _⟩ => show cc.val = cc.val + 0; omega
    | ⟨2, _⟩ => show l'.val + 1 = 0 + (l'.val + 1); omega)

section
variable (hX : ∀ i, (V m c main_v0 : Vec Ideal S8x3x1048576 .f32) i = X i)
variable (hT1 : ∀ (b : Fin 8) (P : Fin 1048576), (V m c main_v1 : Vec Ideal S8x1x1048576 .i32) (ix3 b 0 P) = T (ix2 b P))
variable (hT : ∀ (b : Fin 8) (P : Fin 1048576), (T (ix2 b P)).toNat < 500)
include hX hT1 hT

/-- Feature `cc`'s plane of the result array at (b, label L) is the statistic. -/
theorem plane_stat (b : Fin 8) (cc : Fin 3) (L : Fin 512) :
    planes ((dats m 0 c).arrAt 2 cfg0.N : Vec Ideal S8x12x128 .f32) (ix3 b cc L) = stat X T cc b L.val := by
  have hq : L.val / 128 < 4 := by have := L.isLt; omega
  have hr : L.val % 128 < 128 := Nat.mod_lt _ (by norm_num)
  rw [planes_apply]
  have e := final_stat m c X T hX hT1 hT b cc ⟨L.val / 128, hq⟩ ⟨L.val % 128, hr⟩
  have eL : 128 * (L.val / 128) + L.val % 128 = L.val := by omega
  exact e.trans (congrArg (stat X T cc b) eL)

/-- The three arrays the closing arithmetic takes. -/
theorem sOf_apply (b : Fin 8) (l' : Fin 499) :
    sOf ((dats m 0 c).arrAt 2 cfg0.N : Vec Ideal S8x12x128 .f32) (ix2 b l') = stat X T 0 b (l'.val + 1) := by
  unfold sOf
  rw [cut_apply _ 0 ![0, 0, 0] rfl slices_S8x3x512_S8x1x512_0_0_0 b l']
  exact plane_stat m c X T hX hT1 hT b 0 ⟨l'.val + 1, by have := l'.isLt; omega⟩
theorem ssOf_apply (b : Fin 8) (l' : Fin 499) :
    ssOf ((dats m 0 c).arrAt 2 cfg0.N : Vec Ideal S8x12x128 .f32) (ix2 b l') = stat X T 1 b (l'.val + 1) := by
  unfold ssOf
  rw [cut_apply _ 1 ![0, 1, 0] rfl slices_S8x3x512_S8x1x512_0_1_0 b l']
  exact plane_stat m c X T hX hT1 hT b 1 ⟨l'.val + 1, by have := l'.isLt; omega⟩
theorem cntOf_apply (b : Fin 8) (l' : Fin 499) :
    cntOf ((dats m 0 c).arrAt 2 cfg0.N : Vec Ideal S8x12x128 .f32) (ix2 b l') = stat X T 2 b (l'.val + 1) := by
  unfold cntOf
  rw [cut_apply _ 2 ![0, 2, 0] rfl slices_S8x3x512_S8x1x512_0_2_0 b l']
  exact plane_stat m c X T hX hT1 hT b 2 ⟨l'.val + 1, by have := l'.isLt; omega⟩

end

end Cert.KernelIdeal.KStat

end
-- ==== Proof.PreDecode.lean ====
/-
  The precondition read: every label lies in [0, 500).
-/
import proofs.«421037_j49374944034948_3_alg».proof.Pre_finite_inputs
import proofs.«421037_j49374944034948_3_alg».proof.Proof.Gen.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.PreDecode

open Idealize.ShloMosaic Idealize.ShloMosaic.ValueIdx

/-- The rank-0 shape has one index. -/
instance : Subsingleton Cert.Pre_finite_inputs.S_.Idx := ⟨fun a b => funext fun d => d.elim0⟩

/-- A 32-bit word that is at least 0 and below 500 as a signed word is below 500 as a natural number. -/
theorem word_lt (w : BitVec 32) (h0 : IntOp.cmpi .sge w 0#32 = 1#1) (h1 : IntOp.cmpi .slt w 500#32 = 1#1) :
    w.toNat < 500 := by
  simp only [IntOp.cmpi, StableHlo.Predicate.ofBool_eq_one_iff, BitVec.sle, BitVec.slt, decide_eq_true_eq] at h0 h1
  have e0 : (0#32 : BitVec 32).toInt = 0 := by decide
  have e5 : (500#32 : BitVec 32).toInt = 500 := by decide
  rw [e0] at h0
  rw [e5] at h1
  rw [BitVec.toInt_eq_toNat_cond] at h0 h1
  have := w.isLt
  split at h0 <;> omega

variable [Cert.Pre_finite_inputs.Facts]

/-- Where the precondition holds, every label, read as a natural number, is below 500 (it is non-negative as a signed
    word and less than 500). -/
theorem labels_lt (a0 : FVec Ideal Cert.Pre_finite_inputs.S8x3x1024x1024 .f32) (a1 : IVec Cert.Pre_finite_inputs.S8x1024x1024 32)
    (h : Cert.Pre_finite_inputs.fn (F := Ideal) a0 a1 = fun _ => 1#1) (i : Cert.Pre_finite_inputs.S8x1024x1024.Idx) :
    (a1 i).toNat < 500 := by
  have h' := congrFun h ValueIdx.ix0
  dsimp only [Cert.Pre_finite_inputs.fn] at h'
  obtain ⟨_, h9⟩ := IntOp.andi_eq_one.1 h'
  have h8 := Host.reduce_andi_all _ _ _ _ _ h9 i
  obtain ⟨h5, h7⟩ := IntOp.andi_eq_one.1 h8
  refine word_lt (a1 i) ?_ ?_
  · exact h5
  · exact h7

end Cert.PreDecode

end
-- ==== Proof.lean ====
/-
  The certificate.  The kernel sums, per batch and label, the three channels, their squares and a pixel count, tile by
  tile on the matrix unit through a factorised one-hot (label = 128 · hi + lo); the reference does the same with three
  segmented sums over all pixels; both then apply the same closing arithmetic (the unbiased variance per label, summed
  over the labels present, normalised and averaged over the batch).  Over the extended reals the two triples of sums are
  the same statistic of the arguments (Proof/KStat.lean, Proof/RefSeg.lean over Proof/SegMath.lean), so the results agree.
  The labels are assumed to lie in [0, 500): outside it the reference's segment index lands in another batch's segments
  or outside the table, and the two programs differ.  The image's finiteness is not used: a feature times a 0/1 indicator
  is the feature or zero for every extended real.
-/
import proofs.«421037_j49374944034948_3_alg».proof.Defs
import proofs.«421037_j49374944034948_3_alg».proof.Proof.Gen.Kernel
import proofs.«421037_j49374944034948_3_alg».proof.Proof.Gen.Kernel.Skeleton
import proofs.«421037_j49374944034948_3_alg».proof.Proof.Gen.Kernel.Launch
import proofs.«421037_j49374944034948_3_alg».proof.Proof.Gen.Kernel.Points
import proofs.«421037_j49374944034948_3_alg».proof.Proof.Gen.Kernel.Frame
import proofs.«421037_j49374944034948_3_alg».proof.Proof.Gen.KernelIdeal
import proofs.«421037_j49374944034948_3_alg».proof.Proof.Gen.KernelIdeal.Skeleton
import proofs.«421037_j49374944034948_3_alg».proof.Proof.Gen.KernelIdeal.Launch
import proofs.«421037_j49374944034948_3_alg».proof.Proof.Gen.KernelIdeal.Points
import proofs.«421037_j49374944034948_3_alg».proof.Proof.Gen.KernelIdeal.Frame
import proofs.«421037_j49374944034948_3_alg».proof.Proof.Gen.ReferenceIdeal
import proofs.«421037_j49374944034948_3_alg».proof.Proof.Gen.Pre_finite_inputs
import proofs.«421037_j49374944034948_3_alg».proof.Proof.RefRun
import proofs.«421037_j49374944034948_3_alg».proof.Proof.RefRead
import proofs.«421037_j49374944034948_3_alg».proof.Proof.RefTail
import proofs.«421037_j49374944034948_3_alg».proof.Proof.RefSeg
import proofs.«421037_j49374944034948_3_alg».proof.Proof.KTail
import proofs.«421037_j49374944034948_3_alg».proof.Proof.KStat
import proofs.«421037_j49374944034948_3_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's run at the ideal instance: the result buffer ends at the closing arithmetic of the result array's planes,
    the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v39)
            = Cert.KernelIdeal.KTail.resultOf (F := Ideal) ((Cert.KernelIdeal.Gen.dats m 0 c).arrAt 2 Cert.KernelIdeal.cfg0.N)
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) :=
  (θ_run Cert.KernelIdeal.defs _ _).mono (fun _ h c =>
    ⟨((h c).2 Cert.KernelIdeal.main_v39 (Pipeline.mem_restRefs_of Cert.KernelIdeal.main_v39 (by decide) (by decide))).trans
        (Cert.KernelIdeal.KTail.tail_result m c),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c)⟩)
    (Cert.KernelIdeal.Gen.run_main m ρ)

/-- Under the precondition the two programs' triples of sums agree, hence their results. -/
theorem results_agree [Cert.Pre_finite_inputs.Facts]
    (m : (ℓ : Loc Cert.KernelIdeal.nD Cert.KernelIdeal.τ Cert.KernelIdeal.sig) → Buf (Elt Ideal) ℓ) (c : Dev Cert.KernelIdeal.nD)
    (x0 : (⟨Cert.ReferenceIdeal.S8x3x1024x1024, .f32⟩ : BufTy).Contents (Elt Ideal))
    (x1 : (⟨Cert.ReferenceIdeal.S8x1024x1024, .i32⟩ : BufTy).Contents (Elt Ideal))
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (hpre : Cert.Pre_finite_inputs.fn (F := Ideal) x0 x1 = fun _ => 1#1) :
    Cert.ReferenceIdeal.Read.val_main_v55 (F := Ideal) x0 x1
      = Cert.KernelIdeal.KTail.resultOf (F := Ideal) ((Cert.KernelIdeal.Gen.dats m 0 c).arrAt 2 Cert.KernelIdeal.cfg0.N) := by
  -- every label is below 500, in either program's reshaping of the labels
  have hlt : ∀ j : Cert.ReferenceIdeal.S8x1048576.Idx, (Cert.ReferenceIdeal.Read.val_main_v1 (F := Ideal) x1 j).toNat < 500 := fun j => by
    rw [Cert.ReferenceIdeal.Read.val_main_v1_apply]
    exact Cert.PreDecode.labels_lt x0 x1 hpre _
  have hT : ∀ (b : Fin 8) (P : Fin 1048576), (Cert.ReferenceIdeal.Read.val_main_v1 (F := Ideal) x1 (ix2 b P)).toNat < 500 :=
    fun b P => hlt (ix2 b P)
  -- the region finds the image and the labels as the reference reshapes them
  have hX : ∀ i, (Cert.KernelIdeal.Gen.V m c Cert.KernelIdeal.main_v0 : Vec Ideal Cert.KernelIdeal.S8x3x1048576 .f32) i
      = Cert.ReferenceIdeal.Read.val_main_v0 (F := Ideal) x0 i := fun i => by
    rw [Cert.KernelIdeal.Blocks.V_main_v0 m c, ← h0]; rfl
  have hT1 : ∀ (b : Fin 8) (P : Fin 1048576),
      (Cert.KernelIdeal.Gen.V m c Cert.KernelIdeal.main_v1 : Vec Ideal Cert.KernelIdeal.S8x1x1048576 .i32) (ix3 b 0 P)
        = Cert.ReferenceIdeal.Read.val_main_v1 (F := Ideal) x1 (ix2 b P) := fun b P => by
    rw [Cert.KernelIdeal.Blocks.V_main_v1 m c, ← h1]
    exact Cert.KernelIdeal.Blocks.labels_two_ways x1 _ Cert.ReferenceIdeal.Gen.shapeCasts_S8x1024x1024_S8x1048576 b P
  rw [Cert.ReferenceIdeal.RefTail.v55_eq_tail]
  unfold Cert.KernelIdeal.KTail.resultOf
  have es : Cert.ReferenceIdeal.Read.val_main_v27 (F := Ideal) x0 x1
      = Cert.KernelIdeal.KTail.sOf (F := Ideal) ((Cert.KernelIdeal.Gen.dats m 0 c).arrAt 2 Cert.KernelIdeal.cfg0.N) := by
    funext j
    rw [eq_ix2 j]
    exact (Cert.ReferenceIdeal.RefSeg.s_apply x0 x1 hlt (j 0) (j 1)).trans
      (Cert.KernelIdeal.KStat.sOf_apply m c _ _ hX hT1 hT (j 0) (j 1)).symm
  have ess : Cert.ReferenceIdeal.Read.val_main_v28 (F := Ideal) x0 x1
      = Cert.KernelIdeal.KTail.ssOf (F := Ideal) ((Cert.KernelIdeal.Gen.dats m 0 c).arrAt 2 Cert.KernelIdeal.cfg0.N) := by
    funext j
    rw [eq_ix2 j]
    exact (Cert.ReferenceIdeal.RefSeg.ss_apply x0 x1 hlt (j 0) (j 1)).trans
      (Cert.KernelIdeal.KStat.ssOf_apply m c _ _ hX hT1 hT (j 0) (j 1)).symm
  have ecnt : Cert.ReferenceIdeal.Read.val_main_v29 (F := Ideal) x1
      = Cert.KernelIdeal.KTail.cntOf (F := Ideal) ((Cert.KernelIdeal.Gen.dats m 0 c).arrAt 2 Cert.KernelIdeal.cfg0.N) := by
    funext j
    rw [eq_ix2 j]
    exact (Cert.ReferenceIdeal.RefSeg.cnt_apply (Cert.ReferenceIdeal.Read.val_main_v0 (F := Ideal) x0) x1 hlt (j 0) (j 1)).trans
      (Cert.KernelIdeal.KStat.cntOf_apply m c _ _ hX hT1 hT (j 0) (j 1)).symm
  rw [es, ess, ecnt]

theorem frame_p : Cert.frame_Kernel (hKernel := Cert.Kernel.Gen.facts) (hPre_finite_inputs := Cert.Pre_finite_inputs.Gen.facts) :=
  fun m ρ _ => Cert.Kernel.Gen.frame m ρ
theorem frame_pi : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments, labels in [0, 500): both programs run and end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KTail.resultOf (F := Ideal) ((Cert.KernelIdeal.Gen.dats m 0 c).arrAt 2 Cert.KernelIdeal.cfg0.N),
    kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq]
  exact results_agree m c _ _ (hagree c).1 (hagree c).2 (by rw [(hagree c).1, (hagree c).2]; exact hpre c)

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
